-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x8192x1 : Shape := ⟨3, ![4, 8192, 1]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x8192x1 : S_.BroadcastsInDim S4x8192x1 (![] : Fin 0 → Fin S4x8192x1.rank)
  reducesTo_S4x8192x1_S_d0_1_2 : S4x8192x1.ReducesTo [0, 1, 2] S_

variable [Facts]

def fn {F : FTy → Type} [FloatOps F] (main_arg0 : FVec F S4x8192x3 .f32) (main_arg1 : FVec F S4x8192x3 .f32) (main_arg2 : FVec F S4x8192x1 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192x1 .f32 := Host.absf main_arg2
  let main_cst_2 : FVec F S_ .f32 := constant S_ .f32 0x7F800000#32
  let main_v10 : FVec F S4x8192x1 .f32 := broadcastInDim S4x8192x1 ![] bcast_S_S4x8192x1 main_cst_2
  let main_v11 : IVec S4x8192x1 1 := cmpf .olt main_v9 main_v10
  let main_c_3 : IVec S_ 1 := constantI S_ 1 1#1
  let main_v12 : IVec S_ 1 := (fun x v => Host.reduce IntOp.andi x v reducesTo_S4x8192x1_S_d0_1_2 h_S_) main_v11 main_c_3
  let main_v13 : IVec S_ 1 := andi main_v8 main_v12
  main_v13
-- ==== Kernel.lean ====
abbrev S4x8192x3 : Shape := ⟨3, ![4, 8192, 3]⟩
abbrev S4x8192x1 : Shape := ⟨3, ![4, 8192, 1]⟩
abbrev S4x3x8192 : Shape := ⟨3, ![4, 3, 8192]⟩
abbrev S4x1x8192 : Shape := ⟨3, ![4, 1, 8192]⟩
abbrev S1x3x2048 : Shape := ⟨3, ![1, 3, 2048]⟩
abbrev S1x3x1024 : Shape := ⟨3, ![1, 3, 1024]⟩
abbrev S1x1x2048 : Shape := ⟨3, ![1, 1, 2048]⟩
abbrev S1x1x8192 : Shape := ⟨3, ![1, 1, 8192]⟩
abbrev S1x2048 : Shape := ⟨2, ![1, 2048]⟩
abbrev S1x8192 : Shape := ⟨2, ![1, 8192]⟩
abbrev S3x2048 : Shape := ⟨2, ![3, 2048]⟩
abbrev S3x1024 : Shape := ⟨2, ![3, 1024]⟩
abbrev S2048x3 : Shape := ⟨2, ![2048, 3]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S2048x1024 : Shape := ⟨2, ![2048, 1024]⟩
abbrev S4x8192 : Shape := ⟨2, ![4, 8192]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x3x8192, .f32⟩
  | .hbm, ⟨4, _⟩ => ⟨S4x3x8192, .f32⟩
  | .hbm, ⟨5, _⟩ => ⟨S4x1x8192, .f32⟩
  | .hbm, ⟨6, _⟩ => ⟨S4x1x8192, .f32⟩
  | .hbm, ⟨7, _⟩ => ⟨S4x8192, .f32⟩
  | .hbm, ⟨8, _⟩ => ⟨S4x8192, .f32⟩
  | .hbm, ⟨9, _⟩ => ⟨S4x8192, .f32⟩
  | .hbm, ⟨10, _⟩ => ⟨S4x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x3x2048, .f32⟩
  | .local _ .vmem, ⟨1, _⟩ => ⟨S1x3x2048, .f32⟩
  | .local _ .vmem, ⟨2, _⟩ => ⟨S1x3x1024, .f32⟩
  | .local _ .vmem, ⟨3, _⟩ => ⟨S1x3x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x1x8192, .f32⟩
  | .local _ .vmem, ⟨7, _⟩ => ⟨S1x1x8192, .f32⟩
  | .local _ .vmem, ⟨8, _⟩ => ⟨S1x2048, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v41 : BitVec 32 := Scalar.muli arg2 c1024_i32
  v41
def k0_off1 (i : grid0.Coords) : Fin 2 → Nat :=
  let c0_19 : Index := 0#32
  let arg2 : BitVec 32 := BitVec.ofNat 32 (i 2).val
  let c1024_i32 : BitVec 32 := 1024#32
  let v41 : BitVec 32 := Scalar.muli arg2 c1024_i32
  let v42 : BitVec 32 := v41
  let v43 : Index := Scalar.indexCast v42
  ![0, v43.toNat]
def k0_cond3 (i : grid0.Coords) : BitVec 1 :=
  let arg2 : BitVec 32 := BitVec.ofNat 32 (i 2).val
  let c7_i32 : BitVec 32 := 7#32
  let v50 : BitVec 1 := Scalar.cmpi .eq arg2 c7_i32
  let v51 : BitVec 32 := Scalar.extui v50
  let c0_i32_21 : BitVec 32 := 0#32
  let v52 : BitVec 1 := Scalar.cmpi .ne v51 c0_i32_21
  v52

def k0_cond4 (i : grid0.Coords) : BitVec 1 :=
  let arg1 : BitVec 32 := BitVec.ofNat 32 (i 1).val
  let c3_i32 : BitVec 32 := 3#32
  let v53 : BitVec 1 := Scalar.cmpi .eq arg1 c3_i32
  let arg2 : BitVec 32 := BitVec.ofNat 32 (i 2).val
  let c7_i32_22 : BitVec 32 := 7#32
  let v54 : BitVec 1 := Scalar.cmpi .eq arg2 c7_i32_22
  let v55 : BitVec 1 := Scalar.andi v53 v54
  let v56 : BitVec 32 := Scalar.extui v55
  let c0_i32_23 : BitVec 32 := 0#32
  let v57 : BitVec 1 := Scalar.cmpi .ne v56 c0_i32_23
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  bitsLt_bf16_f32 : FTy.bits .bf16 < FTy.bits .f32
  transposes_S3x2048_p1_0_S2048x3 : S3x2048.Transposes [1, 0] S2048x3
  reduces_S3x2048_S2048 : S3x2048.Reduces [0] S2048
  shapeCasts_S2048_S1x2048 : S2048.ShapeCasts S1x2048
  transposes_S1x2048_p1_0_S2048x1 : S1x2048.Transposes [1, 0] S2048x1
  reduces_S3x1024_S1024 : S3x1024.Reduces [0] S1024
  shapeCasts_S1024_S1x1024 : S1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  transposes_S2048x1_p1_0_S1x2048 : S2048x1.Transposes [1, 0] S1x2048
  reduces_S2048x1024_S1024 : S2048x1024.Reduces [0] S1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  h_S1x1024 : 0 < S1x1024.numel
  shapeCasts_S1x1024_S1x1024 : S1x1024.ShapeCasts S1x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x1x8192_S4x8192 : S4x1x8192.ShapeCasts S4x8192
  shapeCasts_S4x8192x1_S4x8192 : S4x8192x1.ShapeCasts S4x8192
  reducesTo_S4x8192_S_d0_1 : S4x8192.ReducesTo [0, 1] S_
  h_S_ : 0 < S_.numel
  dot_S2048x3_S3x1024_S2048x1024_1_0_0_1_n_n_wf : DotDims.WF S2048x3 S3x1024 S2048x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S4x3x8192.size a
  hwx0_0 : ∀ i : grid0.Coords, EltTy.bits .f32 = 32 ∨ (Rect.block (s := S4x3x8192) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x8192.size a
  hwx0_2 : ∀ i : grid0.Coords, EltTy.bits .f32 = 32 ∨ (Rect.block (s := S4x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S2048x3_S3x1024_S2048x1024_1_0_0_1_n_n : DotDims S2048x3 S3x1024 S2048x1024 where
  lhsContracting := [1]
  rhsContracting := [0]
  lhsNonContracting := [0]
  rhsNonContracting := [1]
  lhsBatch := []
  rhsBatch := []
  wf := dot_S2048x3_S3x1024_S2048x1024_1_0_0_1_n_n_wf

abbrev win0_0 : Pipeline.Window sig grid0 :=
  Pipeline.Window.ofSpec (Memref.whole main_v0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x8192x1 : Shape := ⟨3, ![4, 8192, 1]⟩
abbrev S_ : Shape := ⟨0, ![]⟩
abbrev S4x8192 : Shape := ⟨2, ![4, 8192]⟩
abbrev S4x8192x8192 : Shape := ⟨3, ![4, 8192, 8192]⟩
abbrev S4x1x8192 : Shape := ⟨3, ![4, 1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  shapeCasts_S4x8192x1_S4x8192 : S4x8192x1.ShapeCasts S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What each control case of the kernel body leaves in its two running-minimum buffers and in the two output blocks,
  as the body's payloads applied to what the case loaded.

  The running row minimum is rewritten whole at every point: by the tile's update of what was loaded, or of +∞ where the
  case first resets it. The running column minimum is updated only on the slice of 1024 entries the tile's key block
  covers: inside the slice it is the update of the loaded slice, outside it keeps the base contents (what the point before
  left, or +∞ where the case first resets the whole buffer). The output blocks, where a case writes them, are the buffers
  just updated, reshaped.
-/
import proofs.«169061_j8641474200219_1_alg».proof.Proof.Gen.KernelIdeal.Frame
import Idealize.ShloMosaic.Lib.Pipeline.Value
import Idealize.ShloMosaic.Lib.WritesUnit

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl

/-- The slice of the running column minimum the tile at grid coordinates `i` updates. -/
abbrev colSlice (i : grid0.Coords) : Rect S1x8192 := Rect.unit (s := S1x8192) (k0_off1 i) S1x1024.size (k0_off1_inb i)

/-- Case A: the running row minimum after the point. -/
theorem sout0_A_0_eq (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : cond0_0 i) (hc1 : cond0_1 i) (hc2 : ¬cond0_2 i) (hc3 : ¬cond0_3 i) (x0 : Vec F S1x3x2048 .f32) (x1 : Vec F S1x3x1024 .f32) : sout0_A_0 c i arg3 harg3 arg4 harg4 arg5 harg5 arg6 harg6 arg7 harg7 arg8 harg8 hc0 hc1 hc2 hc3 x0 x1 = k0_pay8 x0 x1 (k0_pay7 (F := F)) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S1x2048) hz2]
  simp only [View.readAt_eq_ld, harg3.read_unread, harg4.read_unread, harg7.read_unread, View.ld_unit_zero (S := S1x3x2048) hz3,
    View.ld_unit_zero (S := S1x3x1024) hz3, View.ld_unit_zero (S := S1x2048) hz2, View.readCov_unit_zero (S := S1x2048) _ hz2]

/-- Case B: the running row minimum after the point. -/
theorem sout0_B_0_eq (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : ¬cond0_2 i) (hc3 : ¬cond0_3 i) (x0 : Vec F S1x3x2048 .f32) (x1 : Vec F S1x3x1024 .f32) (xs0 : Vec F S1x2048 .f32) (xs1 : Vec F S1x8192 .f32) : sout0_B_0 c i arg3 harg3 arg4 harg4 arg5 harg5 arg6 harg6 arg7 harg7 arg8 harg8 hc0 hc1 hc2 hc3 x0 x1 xs0 xs1 = k0_pay8 x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz2]
  simp only [View.readAt_eq_ld, harg3.read_unread, harg4.read_unread, harg7.read_unread, View.ld_unit_zero (S := S1x3x2048) hz3,
    View.ld_unit_zero (S := S1x3x1024) hz3, View.ld_unit_zero (S := S1x2048) hz2]

/-- Case C: the running row minimum after the point. -/
theorem sout0_C_0_eq (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : ¬cond0_3 i) (x0 : Vec F S1x3x2048 .f32) (x1 : Vec F S1x3x1024 .f32) (xs0 : Vec F S1x2048 .f32) (xs1 : Vec F S1x8192 .f32) : sout0_C_0 c i arg3 harg3 arg4 harg4 arg5 harg5 arg6 harg6 arg7 harg7 arg8 harg8 hc0 hc1 hc2 hc3 x0 x1 xs0 xs1 = k0_pay8 x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz2]
  simp only [View.readAt_eq_ld, harg3.read_unread, harg4.read_unread, harg7.read_unread, View.ld_unit_zero (S := S1x3x2048) hz3,
    View.ld_unit_zero (S := S1x3x1024) hz3, View.ld_unit_zero (S := S1x2048) hz2]

/-- Case D: the running row minimum after the point. -/
theorem sout0_D_0_eq (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : cond0_0 i) (hc1 : ¬cond0_1 i) (hc2 : ¬cond0_2 i) (hc3 : ¬cond0_3 i) (x0 : Vec F S1x3x2048 .f32) (x1 : Vec F S1x3x1024 .f32) (xs1 : Vec F S1x8192 .f32) : sout0_D_0 c i arg3 harg3 arg4 harg4 arg5 harg5 arg6 harg6 arg7 harg7 arg8 harg8 hc0 hc1 hc2 hc3 x0 x1 xs1 = k0_pay8 x0 x1 (k0_pay7 (F := F)) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S1x2048) hz2]
  simp only [View.readAt_eq_ld, harg3.read_unread, harg4.read_unread, harg7.read_unread, View.ld_unit_zero (S := S1x3x2048) hz3,
    View.ld_unit_zero (S := S1x3x1024) hz3, View.ld_unit_zero (S := S1x2048) hz2, View.readCov_unit_zero (S := S1x2048) _ hz2]

/-- Case E: the running row minimum after the point. -/
theorem sout0_E_0_eq (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i) (x0 : Vec F S1x3x2048 .f32) (x1 : Vec F S1x3x1024 .f32) (xs0 : Vec F S1x2048 .f32) (xs1 : Vec F S1x8192 .f32) : sout0_E_0 c i arg3 harg3 arg4 harg4 arg5 harg5 arg6 harg6 arg7 harg7 arg8 harg8 hc0 hc1 hc2 hc3 x0 x1 xs0 xs1 = k0_pay8 x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz2]
  simp only [View.readAt_eq_ld, harg3.read_unread, harg4.read_unread, harg7.read_unread, View.ld_unit_zero (S := S1x3x2048) hz3,
    View.ld_unit_zero (S := S1x3x1024) hz3, View.ld_unit_zero (S := S1x2048) hz2]

/-- Case A (the batch's first point: the whole buffer is reset first): inside the updated slice. -/
theorem sout0_A_1_hit (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : cond0_0 i) (hc1 : cond0_1 i) (hc2 : ¬cond0_2 i) (hc3 : ¬cond0_3 i) (x0 : Vec F S1x3x2048 .f32) (x1 : Vec F S1x3x1024 .f32) (o : ℕ) (hoff : k0_off1 i = ![0, o]) (y : S1x8192.Idx) (k : S1x1024.Idx)
    (hy : ∀ a, (y a).val = (![0, o] : Fin 2 → ℕ) a + (k a).val) :
    sout0_A_1 c i arg3 harg3 arg4 harg4 arg5 harg5 arg6 harg6 arg7 harg7 arg8 harg8 hc0 hc1 hc2 hc3 x0 x1 y = k0_pay2 (k0_pay6 x0 x1) (View.ld (k0_pay1 (F := F)) (colSlice i)) k := by
  unfold sout0_A_1
  unfold kernelRun0_A
  dsimp only
  sl_unfold_words
  refine (View.read_writes_cons_unit_of_mem VS0_1 VS0_1.junk (k0_off1_inb i) _ _ y k hoff hy).trans ?_
  simp only [View.readAt_eq_ld, harg3.read_unread, harg4.read_unread, View.ld_unit_zero (S := S1x3x2048) hz3,
    View.ld_unit_zero (S := S1x3x1024) hz3, View.readCov_eq_canon', View.read_writes_junk_eq_canon, View.canon_unit_zero (S := S1x8192) hz2]
  rfl

/-- Case A: outside the updated slice the reset's +∞ stays. -/
theorem sout0_A_1_miss (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : cond0_0 i) (hc1 : cond0_1 i) (hc2 : ¬cond0_2 i) (hc3 : ¬cond0_3 i) (x0 : Vec F S1x3x2048 .f32) (x1 : Vec F S1x3x1024 .f32) (o : ℕ) (hoff : k0_off1 i = ![0, o]) (y : S1x8192.Idx)
    (hmiss : (y 1).val < o ∨ o + 1024 ≤ (y 1).val) :
    sout0_A_1 c i arg3 harg3 arg4 harg4 arg5 harg5 arg6 harg6 arg7 harg7 arg8 harg8 hc0 hc1 hc2 hc3 x0 x1 y = (k0_pay1 (F := F)) y := by
  unfold sout0_A_1
  unfold kernelRun0_A
  dsimp only
  sl_unfold_words
  refine (View.read_writes_cons_unit_of_not_mem VS0_1 VS0_1.junk (k0_off1_inb i) _ _ y hoff 1 hmiss).trans ?_
  rw [View.read_writes_junk_eq_canon, View.canon_unit_zero (S := S1x8192) hz2]

/-- Case B: the running column minimum after the point, inside the updated slice. -/
theorem sout0_B_1_hit (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : ¬cond0_2 i) (hc3 : ¬cond0_3 i) (x0 : Vec F S1x3x2048 .f32) (x1 : Vec F S1x3x1024 .f32) (xs0 : Vec F S1x2048 .f32) (xs1 : Vec F S1x8192 .f32) (o : ℕ) (hoff : k0_off1 i = ![0, o]) (y : S1x8192.Idx) (k : S1x1024.Idx)
    (hy : ∀ a, (y a).val = (![0, o] : Fin 2 → ℕ) a + (k a).val) :
    sout0_B_1 c i arg3 harg3 arg4 harg4 arg5 harg5 arg6 harg6 arg7 harg7 arg8 harg8 hc0 hc1 hc2 hc3 x0 x1 xs0 xs1 y = k0_pay2 (k0_pay6 x0 x1) (View.ld xs1 (colSlice i)) k := by
  unfold sout0_B_1
  unfold kernelRun0_B
  dsimp only
  sl_unfold_words
  refine (View.read_writes_cons_unit_of_mem arg8.view (harg8.unread xs1) (k0_off1_inb i) _ [] y k hoff hy).trans ?_
  simp only [View.readAt_eq_ld, harg3.read_unread, harg4.read_unread, harg8.read_unread, View.ld_unit_zero (S := S1x3x2048) hz3,
    View.ld_unit_zero (S := S1x3x1024) hz3]
  rfl

/-- Case B: outside the updated slice it keeps what the point before left. -/
theorem sout0_B_1_miss (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : ¬cond0_2 i) (hc3 : ¬cond0_3 i) (x0 : Vec F S1x3x2048 .f32) (x1 : Vec F S1x3x1024 .f32) (xs0 : Vec F S1x2048 .f32) (xs1 : Vec F S1x8192 .f32) (o : ℕ) (hoff : k0_off1 i = ![0, o]) (y : S1x8192.Idx)
    (hmiss : (y 1).val < o ∨ o + 1024 ≤ (y 1).val) :
    sout0_B_1 c i arg3 harg3 arg4 harg4 arg5 harg5 arg6 harg6 arg7 harg7 arg8 harg8 hc0 hc1 hc2 hc3 x0 x1 xs0 xs1 y = xs1 y := by
  unfold sout0_B_1
  unfold kernelRun0_B
  dsimp only
  sl_unfold_words
  refine (View.read_writes_cons_unit_of_not_mem arg8.view (harg8.unread xs1) (k0_off1_inb i) _ [] y hoff 1 hmiss).trans ?_
  rw [View.writes_nil, harg8.read_unread]

/-- Case C: the running column minimum after the point, inside the updated slice. -/
theorem sout0_C_1_hit (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : ¬cond0_3 i) (x0 : Vec F S1x3x2048 .f32) (x1 : Vec F S1x3x1024 .f32) (xs0 : Vec F S1x2048 .f32) (xs1 : Vec F S1x8192 .f32) (o : ℕ) (hoff : k0_off1 i = ![0, o]) (y : S1x8192.Idx) (k : S1x1024.Idx)
    (hy : ∀ a, (y a).val = (![0, o] : Fin 2 → ℕ) a + (k a).val) :
    sout0_C_1 c i arg3 harg3 arg4 harg4 arg5 harg5 arg6 harg6 arg7 harg7 arg8 harg8 hc0 hc1 hc2 hc3 x0 x1 xs0 xs1 y = k0_pay2 (k0_pay6 x0 x1) (View.ld xs1 (colSlice i)) k := by
  unfold sout0_C_1
  unfold kernelRun0_C
  dsimp only
  sl_unfold_words
  refine (View.read_writes_cons_unit_of_mem arg8.view (harg8.unread xs1) (k0_off1_inb i) _ [] y k hoff hy).trans ?_
  simp only [View.readAt_eq_ld, harg3.read_unread, harg4.read_unread, harg8.read_unread, View.ld_unit_zero (S := S1x3x2048) hz3,
    View.ld_unit_zero (S := S1x3x1024) hz3]
  rfl

/-- Case C: outside the updated slice it keeps what the point before left. -/
theorem sout0_C_1_miss (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : ¬cond0_3 i) (x0 : Vec F S1x3x2048 .f32) (x1 : Vec F S1x3x1024 .f32) (xs0 : Vec F S1x2048 .f32) (xs1 : Vec F S1x8192 .f32) (o : ℕ) (hoff : k0_off1 i = ![0, o]) (y : S1x8192.Idx)
    (hmiss : (y 1).val < o ∨ o + 1024 ≤ (y 1).val) :
    sout0_C_1 c i arg3 harg3 arg4 harg4 arg5 harg5 arg6 harg6 arg7 harg7 arg8 harg8 hc0 hc1 hc2 hc3 x0 x1 xs0 xs1 y = xs1 y := by
  unfold sout0_C_1
  unfold kernelRun0_C
  dsimp only
  sl_unfold_words
  refine (View.read_writes_cons_unit_of_not_mem arg8.view (harg8.unread xs1) (k0_off1_inb i) _ [] y hoff 1 hmiss).trans ?_
  rw [View.writes_nil, harg8.read_unread]

/-- Case D: the running column minimum after the point, inside the updated slice. -/
theorem sout0_D_1_hit (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : cond0_0 i) (hc1 : ¬cond0_1 i) (hc2 : ¬cond0_2 i) (hc3 : ¬cond0_3 i) (x0 : Vec F S1x3x2048 .f32) (x1 : Vec F S1x3x1024 .f32) (xs1 : Vec F S1x8192 .f32) (o : ℕ) (hoff : k0_off1 i = ![0, o]) (y : S1x8192.Idx) (k : S1x1024.Idx)
    (hy : ∀ a, (y a).val = (![0, o] : Fin 2 → ℕ) a + (k a).val) :
    sout0_D_1 c i arg3 harg3 arg4 harg4 arg5 harg5 arg6 harg6 arg7 harg7 arg8 harg8 hc0 hc1 hc2 hc3 x0 x1 xs1 y = k0_pay2 (k0_pay6 x0 x1) (View.ld xs1 (colSlice i)) k := by
  unfold sout0_D_1
  unfold kernelRun0_D
  dsimp only
  sl_unfold_words
  refine (View.read_writes_cons_unit_of_mem arg8.view (harg8.unread xs1) (k0_off1_inb i) _ [] y k hoff hy).trans ?_
  simp only [View.readAt_eq_ld, harg3.read_unread, harg4.read_unread, harg8.read_unread, View.ld_unit_zero (S := S1x3x2048) hz3,
    View.ld_unit_zero (S := S1x3x1024) hz3]
  rfl

/-- Case D: outside the updated slice it keeps what the point before left. -/
theorem sout0_D_1_miss (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : cond0_0 i) (hc1 : ¬cond0_1 i) (hc2 : ¬cond0_2 i) (hc3 : ¬cond0_3 i) (x0 : Vec F S1x3x2048 .f32) (x1 : Vec F S1x3x1024 .f32) (xs1 : Vec F S1x8192 .f32) (o : ℕ) (hoff : k0_off1 i = ![0, o]) (y : S1x8192.Idx)
    (hmiss : (y 1).val < o ∨ o + 1024 ≤ (y 1).val) :
    sout0_D_1 c i arg3 harg3 arg4 harg4 arg5 harg5 arg6 harg6 arg7 harg7 arg8 harg8 hc0 hc1 hc2 hc3 x0 x1 xs1 y = xs1 y := by
  unfold sout0_D_1
  unfold kernelRun0_D
  dsimp only
  sl_unfold_words
  refine (View.read_writes_cons_unit_of_not_mem arg8.view (harg8.unread xs1) (k0_off1_inb i) _ [] y hoff 1 hmiss).trans ?_
  rw [View.writes_nil, harg8.read_unread]

/-- Case E: the running column minimum after the point, inside the updated slice. -/
theorem sout0_E_1_hit (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i) (x0 : Vec F S1x3x2048 .f32) (x1 : Vec F S1x3x1024 .f32) (xs0 : Vec F S1x2048 .f32) (xs1 : Vec F S1x8192 .f32) (o : ℕ) (hoff : k0_off1 i = ![0, o]) (y : S1x8192.Idx) (k : S1x1024.Idx)
    (hy : ∀ a, (y a).val = (![0, o] : Fin 2 → ℕ) a + (k a).val) :
    sout0_E_1 c i arg3 harg3 arg4 harg4 arg5 harg5 arg6 harg6 arg7 harg7 arg8 harg8 hc0 hc1 hc2 hc3 x0 x1 xs0 xs1 y = k0_pay2 (k0_pay6 x0 x1) (View.ld xs1 (colSlice i)) k := by
  unfold sout0_E_1
  unfold kernelRun0_E
  dsimp only
  sl_unfold_words
  refine (View.read_writes_cons_unit_of_mem arg8.view (harg8.unread xs1) (k0_off1_inb i) _ [] y k hoff hy).trans ?_
  simp only [View.readAt_eq_ld, harg3.read_unread, harg4.read_unread, harg8.read_unread, View.ld_unit_zero (S := S1x3x2048) hz3,
    View.ld_unit_zero (S := S1x3x1024) hz3]
  rfl

/-- Case E: outside the updated slice it keeps what the point before left. -/
theorem sout0_E_1_miss (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i) (x0 : Vec F S1x3x2048 .f32) (x1 : Vec F S1x3x1024 .f32) (xs0 : Vec F S1x2048 .f32) (xs1 : Vec F S1x8192 .f32) (o : ℕ) (hoff : k0_off1 i = ![0, o]) (y : S1x8192.Idx)
    (hmiss : (y 1).val < o ∨ o + 1024 ≤ (y 1).val) :
    sout0_E_1 c i arg3 harg3 arg4 harg4 arg5 harg5 arg6 harg6 arg7 harg7 arg8 harg8 hc0 hc1 hc2 hc3 x0 x1 xs0 xs1 y = xs1 y := by
  unfold sout0_E_1
  unfold kernelRun0_E
  dsimp only
  sl_unfold_words
  refine (View.read_writes_cons_unit_of_not_mem arg8.view (harg8.unread xs1) (k0_off1_inb i) _ [] y hoff 1 hmiss).trans ?_
  rw [View.writes_nil, harg8.read_unread]

/-- Case C writes the running row minimum, just updated, to the first output's block. -/
theorem out0_C_2_eq (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : ¬cond0_3 i) (x0 : Vec F S1x3x2048 .f32) (x1 : Vec F S1x3x1024 .f32) (xs0 : Vec F S1x2048 .f32) (xs1 : Vec F S1x8192 .f32) : out0_C_2 c i arg3 harg3 arg4 harg4 arg5 harg5 arg6 harg6 arg7 harg7 arg8 harg8 hc0 hc1 hc2 hc3 x0 x1 xs0 xs1 = k0_pay3 (k0_pay8 x0 x1 xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3]
  simp only [View.readAt_eq_ld, harg3.read_unread, harg4.read_unread, harg7.read_unread, View.ld_unit_zero (S := S1x3x2048) hz3,
    View.ld_unit_zero (S := S1x3x1024) hz3, View.ld_unit_zero (S := S1x2048) hz2, View.readCov_unit_zero (S := S1x2048) _ hz2]

/-- Case E (the batch's last point) does the same, -/
theorem out0_E_2_eq (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i) (x0 : Vec F S1x3x2048 .f32) (x1 : Vec F S1x3x1024 .f32) (xs0 : Vec F S1x2048 .f32) (xs1 : Vec F S1x8192 .f32) : out0_E_2 c i arg3 harg3 arg4 harg4 arg5 harg5 arg6 harg6 arg7 harg7 arg8 harg8 hc0 hc1 hc2 hc3 x0 x1 xs0 xs1 = k0_pay3 (k0_pay8 x0 x1 xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3]
  simp only [View.readAt_eq_ld, harg3.read_unread, harg4.read_unread, harg7.read_unread, View.ld_unit_zero (S := S1x3x2048) hz3,
    View.ld_unit_zero (S := S1x3x1024) hz3, View.ld_unit_zero (S := S1x2048) hz2, View.readCov_unit_zero (S := S1x2048) _ hz2]

/-- and writes the running column minimum, just updated, to the second output's block. -/
theorem out0_E_3_eq (c : Dev nD) (i : grid0.Coords) (arg3 : Memref sig .tc .vmem S1x3x2048 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S1x2048 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i) (x0 : Vec F S1x3x2048 .f32) (x1 : Vec F S1x3x1024 .f32) (xs0 : Vec F S1x2048 .f32) (xs1 : Vec F S1x8192 .f32) : out0_E_3 c i arg3 harg3 arg4 harg4 arg5 harg5 arg6 harg6 arg7 harg7 arg8 harg8 hc0 hc1 hc2 hc3 x0 x1 xs0 xs1 = k0_pay4 (sout0_E_1 c i arg3 harg3 arg4 harg4 arg5 harg5 arg6 harg6 arg7 harg7 arg8 harg8 hc0 hc1 hc2 hc3 x0 x1 xs0 xs1) := by
  unfold out0_E_3 sout0_E_1
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3]
  simp only [View.readAt_eq_ld, View.ld_unit_zero (S := S1x8192) hz2]

end Cert.KernelIdeal.Pieces
end
-- ==== Proof.Blocks.lean ====
/-
  Where a grid point's input blocks sit in the point sets.

  The grid has 4 · 4 · 8 = 128 points; point `n` is batch `n / 32`, query tile `n / 8 % 4` (2048 points of the first
  point set) and key tile `n % 8` (1024 points of the second). The kernel's two inputs are the point sets transposed to
  coordinate-major [4, 3, 8192], so entry (0, d, q) of the first input block at point `n` is coordinate `d` of point
  `2048 · (n / 8 % 4) + q` of the first point set in batch `n / 32`, and likewise for the second with `1024 · (n % 8) + k`.
  The printed index maps and the printed slice offset are decided once over the grid.
-/
import proofs.«169061_j8641474200219_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The printed index maps and the slice offset as arithmetic of the point's number. -/
theorem idx_facts : ∀ t : Fin cfg0.N,
    win0_0.index t (0 : Fin 3) = t.val / 32 ∧ win0_0.index t (1 : Fin 3) = 0 ∧ win0_0.index t (2 : Fin 3) = t.val / 8 % 4
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = 0 ∧ win0_2.index t (2 : Fin 3) = t.val / 8 % 4
    ∧ win0_3.index t (0 : Fin 3) = t.val / 32 ∧ win0_3.index t (1 : Fin 3) = 0 ∧ win0_3.index t (2 : Fin 3) = 0
    ∧ k0_off1 (grid0.coords t) (0 : Fin 2) = 0 ∧ k0_off1 (grid0.coords t) (1 : Fin 2) = 1024 * (t.val % 8) :=
  (by decide +kernel : ∀ t : Fin grid0.N, _)

/-- The slice offset as a vector. -/
theorem off1_eq (t : Fin cfg0.N) : k0_off1 (grid0.coords t) = ![0, 1024 * (t.val % 8)] := by
  obtain ⟨-, -, -, -, -, -, -, -, -, -, -, -, e0, e1⟩ := idx_facts t
  funext a
  match a with
  | ⟨0, _⟩ => exact e0
  | ⟨1, _⟩ => exact e1

/-- Point `n`'s batch, and the points of the two point sets its tile's entries `q` and `k` are. -/
def bF (n : ℕ) : Fin 4 := ⟨n / 32 % 4, Nat.mod_lt _ (by decide)⟩
def rowIdx (n : ℕ) (q : Fin 2048) : Fin 8192 := ⟨2048 * (n / 8 % 4) + q.val, by have := q.isLt; omega⟩
def colIdx (n : ℕ) (k : Fin 1024) : Fin 8192 := ⟨1024 * (n % 8) + k.val, by have := k.isLt; omega⟩

/-- The two input blocks at a point, at their literal types. -/
abbrev xblk0 (c : Dev nD) (t : Fin cfg0.N) : Vec F S1x3x2048 .f32 := iblk m c 0 t
abbrev xblk1 (c : Dev nD) (t : Fin cfg0.N) : Vec F S1x3x1024 .f32 := iblk m c 1 t

/-- The region finds the first input as the first point set (argument 1) transposed, -/
theorem V_main_v0 (c : Dev nD) :
    V m c main_v0 = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- and the second as the second point set (argument 0) transposed. -/
theorem V_main_v1 (c : Dev nD) :
    V m c main_v1 = transpose S4x3x8192 [0, 2, 1] (m ((c : Thread nD τ).loc main_arg0)) transposes_S4x8192x3_S4x3x8192_0_2_1 := by
  show StableHlo.after hostOps0 (fun b => m (c, b)) (Proc.devRef .tc main_v1) = _
  after_results

/-- Entry (0, d, q) of the first input block is coordinate `d` of the tile's point `q` of the first point set. -/
theorem xblk0_apply (c : Dev nD) (t : Fin cfg0.N) (d : Fin 3) (q : Fin 2048) :
    xblk0 m c t (ix3 0 d q) = m ((c : Thread nD τ).loc main_arg1) (ix3 (bF t.val) (rowIdx t.val q) d) := by
  show V m c main_v0 (((cfg0.win 0).blk t).view.emb (ix3 (0 : Fin 1) d q)) = _
  rw [V_main_v0]
  obtain ⟨e0, e1, e2, -⟩ := idx_facts t
  have hN : t.val < 128 := lt_of_lt_of_eq t.isLt (show cfg0.N = 128 from N_0)
  have he : ((cfg0.win 0).blk t).view.emb (ix3 (0 : Fin 1) d q) = ix3 (bF t.val) d (rowIdx t.val q) := by
    funext a; apply Fin.ext
    match a with
    | ⟨0, _⟩ => show win0_0.index t (0 : Fin 3) * 1 + 1 * 0 = t.val / 32 % 4; omega
    | ⟨1, _⟩ => show win0_0.index t (1 : Fin 3) * 3 + 1 * d.val = d.val; omega
    | ⟨2, _⟩ => show win0_0.index t (2 : Fin 3) * 2048 + 1 * q.val = 2048 * (t.val / 8 % 4) + q.val; omega
  rw [he]
  exact transpose_ix3_021_apply _ _ (bF t.val) d (rowIdx t.val q)

/-- Entry (0, d, k) of the second input block is coordinate `d` of the tile's point `k` of the second point set. -/
theorem xblk1_apply (c : Dev nD) (t : Fin cfg0.N) (d : Fin 3) (k : Fin 1024) :
    xblk1 m c t (ix3 0 d k) = m ((c : Thread nD τ).loc main_arg0) (ix3 (bF t.val) (colIdx t.val k) d) := by
  show V m c main_v1 (((cfg0.win 1).blk t).view.emb (ix3 (0 : Fin 1) d k)) = _
  rw [V_main_v1]
  obtain ⟨-, -, -, e0, e1, e2, -⟩ := idx_facts t
  have hN : t.val < 128 := lt_of_lt_of_eq t.isLt (show cfg0.N = 128 from N_0)
  have he : ((cfg0.win 1).blk t).view.emb (ix3 (0 : Fin 1) d k) = ix3 (bF t.val) d (colIdx t.val k) := by
    funext a; apply Fin.ext
    match a with
    | ⟨0, _⟩ => show win0_1.index t (0 : Fin 3) * 1 + 1 * 0 = t.val / 32 % 4; omega
    | ⟨1, _⟩ => show win0_1.index t (1 : Fin 3) * 3 + 1 * d.val = d.val; omega
    | ⟨2, _⟩ => show win0_1.index t (2 : Fin 3) * 1024 + 1 * k.val = 1024 * (t.val % 8) + k.val; omega
  rw [he]
  exact transpose_ix3_021_apply _ _ (bF t.val) d (colIdx t.val k)

end Cert.KernelIdeal.Blocks

end
-- ==== Proof.AtPoint.lean ====
/-
  The kernel's running minima and output blocks after a grid point, as the body's payloads of the point's two input blocks
  and of what the point before left, case by case (the five cases are which of the two resets and the two write-backs the
  point performs: the first point of a batch, the first key tile of a later query tile, a middle key tile, the last key tile,
  the last point of a batch).
-/
import proofs.«169061_j8641474200219_1_alg».proof.Proof.Pieces
import proofs.«169061_j8641474200219_1_alg».proof.Proof.Blocks

set_option maxRecDepth 16384

noncomputable section

namespace Cert.KernelIdeal.AtPoint

open Idealize.ShloMosaic Idealize.ShloMosaic.TcCoe Idealize.ShloMosaic.ValueIdx
open Idealize.SL Idealize.SL.Sem
open Cert.KernelIdeal Cert.KernelIdeal.Gen Cert.KernelIdeal.Pieces Cert.KernelIdeal.Blocks

variable {F : FTy → Type} [FloatOps F]
variable (m : (ℓ : Loc nD τ sig) → Buf (Elt F) ℓ)

/-- Entry `k'` of the slice the point updates is entry `1024 · (n % 8) + k'` of the buffer. -/
theorem ld_colSlice (t : Fin cfg0.N) (B : Vec F S1x8192 .f32) (k' : Fin 1024) :
    View.ld B (colSlice (grid0.coords t)) (ix2 0 k') = B (ix2 0 (colIdx t.val k')) := by
  show B ((colSlice (grid0.coords t)).idx (ix2 0 k')) = _
  refine congrArg B (funext fun a => Fin.ext ?_)
  have e := off1_eq t
  match a with
  | ⟨0, _⟩ => show k0_off1 (grid0.coords t) 0 + 1 * 0 = 0; rw [e]; rfl
  | ⟨1, _⟩ => show k0_off1 (grid0.coords t) 1 + 1 * k'.val = 1024 * (t.val % 8) + k'.val; rw [e]; show 1024 * (t.val % 8) + 1 * k'.val = _; omega

/-- Case A: the running row minimum after point `t`. -/
theorem row_A (c : Dev nD) (t : Fin cfg0.N) (h0 : t.val % 8 = 0) (h1 : t.val % 32 = 0) (h2 : ¬t.val % 8 = 7) (h3 : ¬t.val % 32 = 31) :
    (outsAt0 m c t.val t.isLt).2.2.1 = k0_pay8 (xblk0 m c t) (xblk1 m c t) (k0_pay7 (F := F)) := by
  rw [outsAt0_A m c t h0 h1 h2 h3]; dsimp only
  exact sout0_A_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)

/-- Case A: the running column minimum after point `t`, inside the slice the point updates, -/
theorem col_A_hit (c : Dev nD) (t : Fin cfg0.N) (h0 : t.val % 8 = 0) (h1 : t.val % 32 = 0) (h2 : ¬t.val % 8 = 7) (h3 : ¬t.val % 32 = 31) (k' : Fin 1024) :
    (outsAt0 m c t.val t.isLt).2.2.2 (ix2 0 (colIdx t.val k'))
      = k0_pay2 (k0_pay6 (xblk0 m c t) (xblk1 m c t)) (View.ld (k0_pay1 (F := F)) (colSlice (grid0.coords t))) (ix2 0 k') := by
  rw [outsAt0_A m c t h0 h1 h2 h3]; dsimp only
  exact sout0_A_1_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (1024 * (t.val % 8)) (off1_eq t) (ix2 0 (colIdx t.val k')) (ix2 0 k')
    (fun a => match a with | ⟨0, _⟩ => rfl | ⟨1, _⟩ => rfl)

/-- and outside it. -/
theorem col_A_miss (c : Dev nD) (t : Fin cfg0.N) (h0 : t.val % 8 = 0) (h1 : t.val % 32 = 0) (h2 : ¬t.val % 8 = 7) (h3 : ¬t.val % 32 = 31) (k : Fin 8192)
    (hk : k.val < 1024 * (t.val % 8) ∨ 1024 * (t.val % 8) + 1024 ≤ k.val) :
    (outsAt0 m c t.val t.isLt).2.2.2 (ix2 0 k) = (k0_pay1 (F := F)) (ix2 0 k) := by
  rw [outsAt0_A m c t h0 h1 h2 h3]; dsimp only
  exact sout0_A_1_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (1024 * (t.val % 8)) (off1_eq t) (ix2 0 k) hk

/-- Case B: the running row minimum after point `t`. -/
theorem row_B (c : Dev nD) (t : Fin cfg0.N) (h0 : ¬t.val % 8 = 0) (h1 : ¬t.val % 32 = 0) (h2 : ¬t.val % 8 = 7) (h3 : ¬t.val % 32 = 31) :
    (outsAt0 m c t.val t.isLt).2.2.1 = k0_pay8 (xblk0 m c t) (xblk1 m c t) (outsAt0 m c (t.val - 1) (Nat.lt_of_le_of_lt (Nat.sub_le _ _) t.isLt)).2.2.1 := by
  rw [outsAt0_B m c t h0 h1 h2 h3]; dsimp only
  exact sout0_B_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- Case B: the running column minimum after point `t`, inside the slice the point updates, -/
theorem col_B_hit (c : Dev nD) (t : Fin cfg0.N) (h0 : ¬t.val % 8 = 0) (h1 : ¬t.val % 32 = 0) (h2 : ¬t.val % 8 = 7) (h3 : ¬t.val % 32 = 31) (k' : Fin 1024) :
    (outsAt0 m c t.val t.isLt).2.2.2 (ix2 0 (colIdx t.val k'))
      = k0_pay2 (k0_pay6 (xblk0 m c t) (xblk1 m c t)) (View.ld (outsAt0 m c (t.val - 1) (Nat.lt_of_le_of_lt (Nat.sub_le _ _) t.isLt)).2.2.2 (colSlice (grid0.coords t))) (ix2 0 k') := by
  rw [outsAt0_B m c t h0 h1 h2 h3]; dsimp only
  exact sout0_B_1_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 8)) (off1_eq t) (ix2 0 (colIdx t.val k')) (ix2 0 k')
    (fun a => match a with | ⟨0, _⟩ => rfl | ⟨1, _⟩ => rfl)

/-- and outside it. -/
theorem col_B_miss (c : Dev nD) (t : Fin cfg0.N) (h0 : ¬t.val % 8 = 0) (h1 : ¬t.val % 32 = 0) (h2 : ¬t.val % 8 = 7) (h3 : ¬t.val % 32 = 31) (k : Fin 8192)
    (hk : k.val < 1024 * (t.val % 8) ∨ 1024 * (t.val % 8) + 1024 ≤ k.val) :
    (outsAt0 m c t.val t.isLt).2.2.2 (ix2 0 k) = (outsAt0 m c (t.val - 1) (Nat.lt_of_le_of_lt (Nat.sub_le _ _) t.isLt)).2.2.2 (ix2 0 k) := by
  rw [outsAt0_B m c t h0 h1 h2 h3]; dsimp only
  exact sout0_B_1_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 8)) (off1_eq t) (ix2 0 k) hk

/-- Case C: the running row minimum after point `t`. -/
theorem row_C (c : Dev nD) (t : Fin cfg0.N) (h0 : ¬t.val % 8 = 0) (h1 : ¬t.val % 32 = 0) (h2 : t.val % 8 = 7) (h3 : ¬t.val % 32 = 31) :
    (outsAt0 m c t.val t.isLt).2.2.1 = k0_pay8 (xblk0 m c t) (xblk1 m c t) (outsAt0 m c (t.val - 1) (Nat.lt_of_le_of_lt (Nat.sub_le _ _) t.isLt)).2.2.1 := by
  rw [outsAt0_C m c t h0 h1 h2 h3]; dsimp only
  exact sout0_C_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- Case C: the running column minimum after point `t`, inside the slice the point updates, -/
theorem col_C_hit (c : Dev nD) (t : Fin cfg0.N) (h0 : ¬t.val % 8 = 0) (h1 : ¬t.val % 32 = 0) (h2 : t.val % 8 = 7) (h3 : ¬t.val % 32 = 31) (k' : Fin 1024) :
    (outsAt0 m c t.val t.isLt).2.2.2 (ix2 0 (colIdx t.val k'))
      = k0_pay2 (k0_pay6 (xblk0 m c t) (xblk1 m c t)) (View.ld (outsAt0 m c (t.val - 1) (Nat.lt_of_le_of_lt (Nat.sub_le _ _) t.isLt)).2.2.2 (colSlice (grid0.coords t))) (ix2 0 k') := by
  rw [outsAt0_C m c t h0 h1 h2 h3]; dsimp only
  exact sout0_C_1_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 8)) (off1_eq t) (ix2 0 (colIdx t.val k')) (ix2 0 k')
    (fun a => match a with | ⟨0, _⟩ => rfl | ⟨1, _⟩ => rfl)

/-- and outside it. -/
theorem col_C_miss (c : Dev nD) (t : Fin cfg0.N) (h0 : ¬t.val % 8 = 0) (h1 : ¬t.val % 32 = 0) (h2 : t.val % 8 = 7) (h3 : ¬t.val % 32 = 31) (k : Fin 8192)
    (hk : k.val < 1024 * (t.val % 8) ∨ 1024 * (t.val % 8) + 1024 ≤ k.val) :
    (outsAt0 m c t.val t.isLt).2.2.2 (ix2 0 k) = (outsAt0 m c (t.val - 1) (Nat.lt_of_le_of_lt (Nat.sub_le _ _) t.isLt)).2.2.2 (ix2 0 k) := by
  rw [outsAt0_C m c t h0 h1 h2 h3]; dsimp only
  exact sout0_C_1_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 8)) (off1_eq t) (ix2 0 k) hk

/-- Case D: the running row minimum after point `t`. -/
theorem row_D (c : Dev nD) (t : Fin cfg0.N) (h0 : t.val % 8 = 0) (h1 : ¬t.val % 32 = 0) (h2 : ¬t.val % 8 = 7) (h3 : ¬t.val % 32 = 31) :
    (outsAt0 m c t.val t.isLt).2.2.1 = k0_pay8 (xblk0 m c t) (xblk1 m c t) (k0_pay7 (F := F)) := by
  rw [outsAt0_D m c t h0 h1 h2 h3]; dsimp only
  exact sout0_D_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2

/-- Case D: the running column minimum after point `t`, inside the slice the point updates, -/
theorem col_D_hit (c : Dev nD) (t : Fin cfg0.N) (h0 : t.val % 8 = 0) (h1 : ¬t.val % 32 = 0) (h2 : ¬t.val % 8 = 7) (h3 : ¬t.val % 32 = 31) (k' : Fin 1024) :
    (outsAt0 m c t.val t.isLt).2.2.2 (ix2 0 (colIdx t.val k'))
      = k0_pay2 (k0_pay6 (xblk0 m c t) (xblk1 m c t)) (View.ld (outsAt0 m c (t.val - 1) (Nat.lt_of_le_of_lt (Nat.sub_le _ _) t.isLt)).2.2.2 (colSlice (grid0.coords t))) (ix2 0 k') := by
  rw [outsAt0_D m c t h0 h1 h2 h3]; dsimp only
  exact sout0_D_1_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 (1024 * (t.val % 8)) (off1_eq t) (ix2 0 (colIdx t.val k')) (ix2 0 k')
    (fun a => match a with | ⟨0, _⟩ => rfl | ⟨1, _⟩ => rfl)

/-- and outside it. -/
theorem col_D_miss (c : Dev nD) (t : Fin cfg0.N) (h0 : t.val % 8 = 0) (h1 : ¬t.val % 32 = 0) (h2 : ¬t.val % 8 = 7) (h3 : ¬t.val % 32 = 31) (k : Fin 8192)
    (hk : k.val < 1024 * (t.val % 8) ∨ 1024 * (t.val % 8) + 1024 ≤ k.val) :
    (outsAt0 m c t.val t.isLt).2.2.2 (ix2 0 k) = (outsAt0 m c (t.val - 1) (Nat.lt_of_le_of_lt (Nat.sub_le _ _) t.isLt)).2.2.2 (ix2 0 k) := by
  rw [outsAt0_D m c t h0 h1 h2 h3]; dsimp only
  exact sout0_D_1_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 (1024 * (t.val % 8)) (off1_eq t) (ix2 0 k) hk

/-- Case E: the running row minimum after point `t`. -/
theorem row_E (c : Dev nD) (t : Fin cfg0.N) (h0 : ¬t.val % 8 = 0) (h1 : ¬t.val % 32 = 0) (h2 : t.val % 8 = 7) (h3 : t.val % 32 = 31) :
    (outsAt0 m c t.val t.isLt).2.2.1 = k0_pay8 (xblk0 m c t) (xblk1 m c t) (outsAt0 m c (t.val - 1) (Nat.lt_of_le_of_lt (Nat.sub_le _ _) t.isLt)).2.2.1 := by
  rw [outsAt0_E m c t h0 h1 h2 h3]; dsimp only
  exact sout0_E_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- Case E: the running column minimum after point `t`, inside the slice the point updates, -/
theorem col_E_hit (c : Dev nD) (t : Fin cfg0.N) (h0 : ¬t.val % 8 = 0) (h1 : ¬t.val % 32 = 0) (h2 : t.val % 8 = 7) (h3 : t.val % 32 = 31) (k' : Fin 1024) :
    (outsAt0 m c t.val t.isLt).2.2.2 (ix2 0 (colIdx t.val k'))
      = k0_pay2 (k0_pay6 (xblk0 m c t) (xblk1 m c t)) (View.ld (outsAt0 m c (t.val - 1) (Nat.lt_of_le_of_lt (Nat.sub_le _ _) t.isLt)).2.2.2 (colSlice (grid0.coords t))) (ix2 0 k') := by
  rw [outsAt0_E m c t h0 h1 h2 h3]; dsimp only
  exact sout0_E_1_hit c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 8)) (off1_eq t) (ix2 0 (colIdx t.val k')) (ix2 0 k')
    (fun a => match a with | ⟨0, _⟩ => rfl | ⟨1, _⟩ => rfl)

/-- and outside it. -/
theorem col_E_miss (c : Dev nD) (t : Fin cfg0.N) (h0 : ¬t.val % 8 = 0) (h1 : ¬t.val % 32 = 0) (h2 : t.val % 8 = 7) (h3 : t.val % 32 = 31) (k : Fin 8192)
    (hk : k.val < 1024 * (t.val % 8) ∨ 1024 * (t.val % 8) + 1024 ≤ k.val) :
    (outsAt0 m c t.val t.isLt).2.2.2 (ix2 0 k) = (outsAt0 m c (t.val - 1) (Nat.lt_of_le_of_lt (Nat.sub_le _ _) t.isLt)).2.2.2 (ix2 0 k) := by
  rw [outsAt0_E m c t h0 h1 h2 h3]; dsimp only
  exact sout0_E_1_miss c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 8)) (off1_eq t) (ix2 0 k) hk

/-- Case C: the first output's block after point `t` is the running row minimum just updated, reshaped. -/
theorem out2_C (c : Dev nD) (t : Fin cfg0.N) (h0 : ¬t.val % 8 = 0) (h1 : ¬t.val % 32 = 0) (h2 : t.val % 8 = 7) (h3 : ¬t.val % 32 = 31) :
    (outsAt0 m c t.val t.isLt).1 = k0_pay3 ((outsAt0 m c t.val t.isLt).2.2.1) := by
  rw [row_C m c t h0 h1 h2 h3, outsAt0_C m c t h0 h1 h2 h3]; dsimp only
  exact out0_C_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- Case E: the first output's block after point `t` is the running row minimum just updated, reshaped. -/
theorem out2_E (c : Dev nD) (t : Fin cfg0.N) (h0 : ¬t.val % 8 = 0) (h1 : ¬t.val % 32 = 0) (h2 : t.val % 8 = 7) (h3 : t.val % 32 = 31) :
    (outsAt0 m c t.val t.isLt).1 = k0_pay3 ((outsAt0 m c t.val t.isLt).2.2.1) := by
  rw [row_E m c t h0 h1 h2 h3, outsAt0_E m c t h0 h1 h2 h3]; dsimp only
  exact out0_E_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- Case E: the second output's block after point `t` is the running column minimum just updated, reshaped. -/
theorem out3_E (c : Dev nD) (t : Fin cfg0.N) (h0 : ¬t.val % 8 = 0) (h1 : ¬t.val % 32 = 0) (h2 : t.val % 8 = 7) (h3 : t.val % 32 = 31) :
    (outsAt0 m c t.val t.isLt).2.1 = k0_pay4 ((outsAt0 m c t.val t.isLt).2.2.2) := by
  rw [outsAt0_E m c t h0 h1 h2 h3]; dsimp only
  exact out0_E_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.AtPoint

end
-- ==== Proof.LibMinBlocks.lean ====
/-
  Minima over blocks of an index range, in any complete linear order (the extended reals are one).

  A minimum accumulated block by block is a minimum over an initial segment of the indices: the minimum over the
  indices below `B * (a + 1)` is the smaller of the minimum over the indices below `B * a` and the minimum over block
  `a` (`iInf_lt_block_succ`); over no index it is `⊤` (`iInf_lt_zero`), and once the bound passes every index it is the
  minimum over all of them (`iInf_lt_of_forall`). A fold of `min` from a start value over a whole finite type is the
  smaller of the start value and the infimum (`fold_min_univ`).
-/
import Mathlib.Order.CompleteLattice.Finset
import Mathlib.Order.ConditionallyCompleteLattice.Basic
import Mathlib.Data.Finset.Fold
import Mathlib.Data.Fintype.Basic
import Mathlib.Data.Fintype.Lattice

namespace Cert.LibMinBlocks

variable {α : Type*} [CompleteLinearOrder α]

/-- A fold of `min` from `a` over every element of a finite type is `min a` of the infimum of the values. -/
theorem fold_min_univ {ι : Type*} [Fintype ι] (a : α) (f : ι → α) :
    (Finset.univ : Finset ι).fold min a f = min a (⨅ k, f k) := by
  rw [← Finset.inf_univ_eq_iInf]
  induction (Finset.univ : Finset ι) using Finset.cons_induction with
  | empty => simp
  | cons k S hk ih => rw [Finset.fold_cons, Finset.inf_cons, ih]; exact min_left_comm _ _ _

/-- From `⊤` the fold of `min` is the infimum. -/
theorem fold_min_top_univ {ι : Type*} [Fintype ι] (f : ι → α) :
    (Finset.univ : Finset ι).fold min ⊤ f = ⨅ k, f k := by
  rw [fold_min_univ, min_eq_right le_top]

variable {N : ℕ}

/-- Over the indices below `0` (none) the infimum is `⊤`. -/
theorem iInf_lt_zero (f : Fin N → α) : (⨅ (j : Fin N) (_ : j.val < 0), f j) = ⊤ := by
  simp

/-- A bound that every index meets can be dropped. -/
theorem iInf_lt_of_forall (f : Fin N → α) (M : ℕ) (h : ∀ j : Fin N, j.val < M) :
    (⨅ (j : Fin N) (_ : j.val < M), f j) = ⨅ j, f j := by
  simp [h]

/-- Equal bounds give equal infima (the bound is usually an arithmetic expression of a grid point). -/
theorem iInf_lt_congr (f : Fin N → α) {M M' : ℕ} (h : M = M') :
    (⨅ (j : Fin N) (_ : j.val < M), f j) = ⨅ (j : Fin N) (_ : j.val < M'), f j := by
  rw [h]

/-- THE BLOCK STEP. The infimum over the indices below `M + B` is the smaller of the infimum over the indices below
    `M` and the infimum over the block of `B` indices that starts at `M`, the block being given by any enumeration `g` of it. -/
theorem iInf_lt_add_block (f : Fin N → α) (M B : ℕ) (g : Fin B → Fin N) (hg : ∀ k : Fin B, (g k).val = M + k.val) :
    (⨅ (j : Fin N) (_ : j.val < M + B), f j) = min (⨅ (j : Fin N) (_ : j.val < M), f j) (⨅ k : Fin B, f (g k)) := by
  apply le_antisymm
  · refine le_min (le_iInf₂ fun j hj => iInf₂_le j (by omega)) (le_iInf fun k => iInf₂_le (g k) ?_)
    have := hg k; have := k.isLt; omega
  · refine le_iInf₂ fun j hj => ?_
    by_cases h : j.val < M
    · exact (min_le_left _ _).trans (iInf₂_le j h)
    · have hk : j.val - M < B := by omega
      refine (min_le_right _ _).trans ((iInf_le _ (⟨j.val - M, hk⟩ : Fin B)).trans (le_of_eq (congrArg f (Fin.ext ?_))))
      rw [hg]; show M + (j.val - M) = j.val; omega

/-- The same with the bounds written as multiples of the block length. -/
theorem iInf_lt_block_succ (f : Fin N → α) (B a : ℕ) (g : Fin B → Fin N) (hg : ∀ k : Fin B, (g k).val = B * a + k.val) :
    (⨅ (j : Fin N) (_ : j.val < B * (a + 1)), f j)
      = min (⨅ (j : Fin N) (_ : j.val < B * a), f j) (⨅ k : Fin B, f (g k)) := by
  rw [Nat.mul_succ]; exact iInf_lt_add_block f (B * a) B g hg

end Cert.LibMinBlocks
-- ==== Proof.TileValue.lean ====
/-
  The kernel body's arithmetic, read at an index over the extended reals.

  One grid point works on a tile: `x0` is a [1, 3, 2048] block of the first point set laid out coordinate-major
  (entry (0, d, q) is coordinate `d` of the tile's point `q`) and `x1` a [1, 3, 1024] block of the second. The body forms
  the 2048 × 1024 table of clamped squared distances (`k0_pay5`), its column minima (`k0_pay6`: for each of the 1024
  points of `x1` the least distance to a point of `x0`) and folds its row minima into the running row minimum it loaded
  (`k0_pay8`). The remaining stores are resets to +∞ (`k0_pay1`, `k0_pay7`), the elementwise minimum with a loaded slice
  (`k0_pay2`) and two reshapes that add a unit axis (`k0_pay3`, `k0_pay4`).
-/
import proofs.«169061_j8641474200219_1_alg».proof.Proof.Gen.KernelIdeal.Skeleton
import proofs.«169061_j8641474200219_1_alg».proof.Proof.LibMinBlocks
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen
open scoped BigOperators

/-! ## Reductions and column layouts read at an index -/

/-- The word 0x7F800000 is +∞. -/
theorem ofBits_inf_f32 : Ideal.ofBits .f32 0x7F800000#32 = (⊤ : EReal) := by
  simp [Ideal.ofBits, Ideal.ieee]

/-- A minimum reduction over one axis, at the extended reals: the fold of `min` from the accumulator's value over that
    axis's coordinates, the reduced index with the coordinate inserted. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the word of +∞ the fold of `min` over a whole finite type is the infimum. -/
theorem fold_min_inf {ι : Type} [Fintype ι] (f : ι → EReal) :
    (Finset.univ : Finset ι).fold min (FloatOps.ofBits (F := Ideal) .f32 0x7F800000#32) f = ⨅ k, f k := by
  show (Finset.univ : Finset ι).fold min (Ideal.ofBits .f32 0x7F800000#32) f = _
  rw [ofBits_inf_f32]
  exact Cert.LibMinBlocks.fold_min_top_univ f

/-- The minimum over the rows of a matrix, from +∞: at column `k` the infimum of that column. -/
theorem minAxis0_apply {m n : ℕ} (src : FVec Ideal ⟨2, ![m, n]⟩ .f32) (h : Shape.Reduces ⟨2, ![m, n]⟩ [0] ⟨1, ![n]⟩)
    (hφ : FKind.Formats .f32) (hacc : (0x7F800000#32 : BitVec 32) = 0x7F800000#32) (k : Fin n) :
    multiReduction .minimumf [0] ⟨1, ![n]⟩ src 0x7F800000#32 h hφ hacc (ix1 k) = ⨅ q : Fin m, (src (ix2 q k) : EReal) := by
  refine ((multiReduction_minimumf_single src _ h hφ hacc (ix1 k)).trans (fold_min_inf _)).trans ?_
  refine iInf_congr fun q => congrArg src (funext fun a => Fin.ext ?_)
  match a with
  | ⟨0, _⟩ => rfl
  | ⟨1, _⟩ => rfl

/-- The minimum over the columns of a matrix, from +∞: at row `q` the infimum of that row. -/
theorem minAxis1_apply {m n : ℕ} (src : FVec Ideal ⟨2, ![m, n]⟩ .f32) (h : Shape.Reduces ⟨2, ![m, n]⟩ [1] ⟨1, ![m]⟩)
    (hφ : FKind.Formats .f32) (hacc : (0x7F800000#32 : BitVec 32) = 0x7F800000#32) (q : Fin m) :
    multiReduction .minimumf [1] ⟨1, ![m]⟩ src 0x7F800000#32 h hφ hacc (ix1 q) = ⨅ k : Fin n, (src (ix2 q k) : EReal) := by
  refine ((multiReduction_minimumf_single src _ h hφ hacc (ix1 q)).trans (fold_min_inf _)).trans ?_
  refine iInf_congr fun k => congrArg src (funext fun a => Fin.ext ?_)
  match a with
  | ⟨0, _⟩ => rfl
  | ⟨1, _⟩ => rfl

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of a matrix, from zero: at column `q` the sum of that column's entries. -/
theorem sumAxis0_apply {m n : ℕ} (src : FVec Ideal ⟨2, ![m, n]⟩ .f32) (h : Shape.Reduces ⟨2, ![m, n]⟩ [0] ⟨1, ![n]⟩)
    (hφ : FKind.Formats .f32) (hacc : (0x00000000#32 : BitVec 32) = 0x00000000#32) (q : Fin n) :
    multiReduction .add [0] ⟨1, ![n]⟩ src 0x00000000#32 h hφ hacc (ix1 q) = ∑ d : Fin m, (src (ix2 d q) : EReal) := by
  refine (Ideal.multiReduction_add_single src _ h hφ hacc (ix1 q)).trans ?_
  refine Finset.sum_congr rfl fun d _ => congrArg src (funext fun a => Fin.ext ?_)
  match a with
  | ⟨0, _⟩ => rfl
  | ⟨1, _⟩ => rfl

/-! ## The tile's product of the two point blocks: rows of the left operand against columns of the right -/

theorem lhs_dot_0 (i : S2048x1024.Idx) (c : dot_S2048x3_S3x1024_S2048x1024_1_0_0_1_n_n.contr.Idx) :
    (dot_S2048x3_S3x1024_S2048x1024_1_0_0_1_n_n.lhsIdx i c 0).val = (i 0).val := by
  unfold DotDims.lhsIdx
  rw [dif_neg (show ¬(0 : Fin S2048x3.rank) ∈ dot_S2048x3_S3x1024_S2048x1024_1_0_0_1_n_n.lhsBatch by decide), dif_pos (show (0 : Fin S2048x3.rank) ∈ dot_S2048x3_S3x1024_S2048x1024_1_0_0_1_n_n.lhsNonContracting by decide)]
  rfl
theorem lhs_dot_1 (i : S2048x1024.Idx) (c : dot_S2048x3_S3x1024_S2048x1024_1_0_0_1_n_n.contr.Idx) :
    (dot_S2048x3_S3x1024_S2048x1024_1_0_0_1_n_n.lhsIdx i c 1).val = (c ⟨0, by decide⟩).val :=
  dot_S2048x3_S3x1024_S2048x1024_1_0_0_1_n_n.lhsIdx_val_of_single rfl i c
theorem rhs_dot_0 (i : S2048x1024.Idx) (c : dot_S2048x3_S3x1024_S2048x1024_1_0_0_1_n_n.contr.Idx) :
    (dot_S2048x3_S3x1024_S2048x1024_1_0_0_1_n_n.rhsIdx i c 0).val = (c ⟨0, by decide⟩).val :=
  dot_S2048x3_S3x1024_S2048x1024_1_0_0_1_n_n.rhsIdx_val_of_single rfl i c
theorem rhs_dot_1 (i : S2048x1024.Idx) (c : dot_S2048x3_S3x1024_S2048x1024_1_0_0_1_n_n.contr.Idx) :
    (dot_S2048x3_S3x1024_S2048x1024_1_0_0_1_n_n.rhsIdx i c 1).val = (i 1).val := by
  unfold DotDims.rhsIdx
  rw [dif_neg (show ¬(1 : Fin S3x1024.rank) ∈ dot_S2048x3_S3x1024_S2048x1024_1_0_0_1_n_n.rhsBatch by decide), dif_pos (show (1 : Fin S3x1024.rank) ∈ dot_S2048x3_S3x1024_S2048x1024_1_0_0_1_n_n.rhsNonContracting by decide)]
  rfl

/-- The product into the zero accumulator, at (q, k): the sum over the three coordinates of row `q` of the left operand
    times column `k` of the right. -/
theorem tileDot_apply (lhs : FVec Ideal S2048x3 .bf16) (rhs : FVec Ideal S3x1024 .bf16) (q : Fin 2048) (k : Fin 1024) :
    matmul dot_S2048x3_S3x1024_S2048x1024_1_0_0_1_n_n none lhs rhs (constant (F := Ideal) S2048x1024 .f32 0x00000000#32) (ix2 q k)
      = ∑ d : Fin 3, (lhs (ix2 q d) * rhs (ix2 d k) : EReal) := by
  simp only [matmul]
  rw [Ideal.matmul_constant_zero_apply, ← Equiv.sum_comp (contrEquiv1 dot_S2048x3_S3x1024_S2048x1024_1_0_0_1_n_n 3 rfl rfl).symm]
  refine Finset.sum_congr rfl fun d _ => ?_
  have hk := contrEquiv1_symm_val dot_S2048x3_S3x1024_S2048x1024_1_0_0_1_n_n 3 rfl rfl d
  have el : dot_S2048x3_S3x1024_S2048x1024_1_0_0_1_n_n.lhsIdx (ix2 q k) ((contrEquiv1 dot_S2048x3_S3x1024_S2048x1024_1_0_0_1_n_n 3 rfl rfl).symm d) = ix2 q d := funext fun a => Fin.ext (by
    match a with
    | ⟨0, _⟩ => exact lhs_dot_0 _ _
    | ⟨1, _⟩ => exact (lhs_dot_1 _ _).trans hk)
  have er : dot_S2048x3_S3x1024_S2048x1024_1_0_0_1_n_n.rhsIdx (ix2 q k) ((contrEquiv1 dot_S2048x3_S3x1024_S2048x1024_1_0_0_1_n_n 3 rfl rfl).symm d) = ix2 d k := funext fun a => Fin.ext (by
    match a with
    | ⟨0, _⟩ => exact (rhs_dot_0 _ _).trans hk
    | ⟨1, _⟩ => exact rhs_dot_1 _ _)
  rw [el, er]

/-- The tile's table of clamped squared distances at (q, k): point `q` of `x0` against point `k` of `x1`. -/
theorem pay5_apply (x0 : Vec Ideal S1x3x2048 .f32) (x1 : Vec Ideal S1x3x1024 .f32) (q : Fin 2048) (k : Fin 1024) :
    k0_pay5 (F := Ideal) x0 x1 (ix2 q k)
      = (max ((∑ d : Fin 3, x0 (ix3 0 d q) * x0 (ix3 0 d q) + ∑ d : Fin 3, x1 (ix3 0 d k) * x1 (ix3 0 d k))
            - Ideal.ofBits .f32 0x40000000#32 * ∑ d : Fin 3, x0 (ix3 0 d q) * x1 (ix3 0 d k))
          (Ideal.ofBits .f32 0x00000000#32) : EReal) := by
  unfold k0_pay5
  simp only [maximumf_apply, subf_apply, addf_apply, mulf_apply, broadcast_apply]
  refine congrArg₂ max (congrArg₂ (· - ·) (congrArg₂ (· + ·) ?_ ?_) (congrArg₂ (· * ·) rfl ?_)) rfl
  · -- the squared norm of point `q` of `x0`: a column sum, laid out as a column and broadcast along the rows
    refine (broadcastTo_a1_ab_apply _ _ q k).trans ?_
    refine (transpose_ix2_apply _ _ q 0).trans ?_
    refine (shapeCast_a_1a_apply _ _ 0 q).trans ?_
    refine (sumAxis0_apply _ _ _ _ q).trans ?_
    refine Finset.sum_congr rfl fun d _ => ?_
    exact congrArg₂ (· * ·) (shapeCast_1ab_ab_apply x0 _ d q) (shapeCast_1ab_ab_apply x0 _ d q)
  · -- the squared norm of point `k` of `x1`: a column sum, laid out as a row and broadcast along the columns
    refine (broadcastTo_1b_ab_apply _ _ q k).trans ?_
    refine (shapeCast_a_1a_apply _ _ 0 k).trans ?_
    refine (sumAxis0_apply _ _ _ _ k).trans ?_
    refine Finset.sum_congr rfl fun d _ => ?_
    exact congrArg₂ (· * ·) (shapeCast_1ab_ab_apply x1 _ d k) (shapeCast_1ab_ab_apply x1 _ d k)
  · -- the inner product of the two points
    refine (tileDot_apply _ _ q k).trans ?_
    refine Finset.sum_congr rfl fun d _ => ?_
    refine congrArg₂ (· * ·) ((transpose_ix2_apply _ _ q d).trans ?_) ?_
    · exact shapeCast_1ab_ab_apply x0 _ d q
    · exact shapeCast_1ab_ab_apply x1 _ d k

/-- The column minima of the table: for point `k` of `x1` the least distance to any of the tile's 2048 points of `x0`. -/
theorem pay6_apply (x0 : Vec Ideal S1x3x2048 .f32) (x1 : Vec Ideal S1x3x1024 .f32) (k : Fin 1024) :
    k0_pay6 (F := Ideal) x0 x1 (ix2 0 k) = (⨅ q : Fin 2048, (k0_pay5 (F := Ideal) x0 x1 (ix2 q k) : EReal)) := by
  unfold k0_pay6
  refine (shapeCast_a_1a_apply _ _ 0 k).trans ?_
  exact minAxis0_apply (k0_pay5 (F := Ideal) x0 x1) _ _ _ k

/-- The running row minimum after this tile: what was loaded, `v`, against the table's row minimum. -/
theorem pay8_apply (x0 : Vec Ideal S1x3x2048 .f32) (x1 : Vec Ideal S1x3x1024 .f32) (v : Vec Ideal S1x2048 .f32) (q : Fin 2048) :
    k0_pay8 (F := Ideal) x0 x1 v (ix2 0 q)
      = (min (v (ix2 0 q)) (⨅ k : Fin 1024, (k0_pay5 (F := Ideal) x0 x1 (ix2 q k) : EReal)) : EReal) := by
  unfold k0_pay8
  rw [shapeCast_self]
  refine congrArg (min (v (ix2 0 q))) ?_
  refine (transpose_ix2_apply _ _ 0 q).trans ?_
  refine (shapeCast_a_a1_apply _ _ q 0).trans ?_
  exact minAxis1_apply (k0_pay5 (F := Ideal) x0 x1) _ _ _ q

/-- The two resets store +∞ everywhere. -/
theorem pay7_apply (y : S1x2048.Idx) : (k0_pay7 (F := Ideal)) y = (⊤ : EReal) := by
  unfold k0_pay7
  rw [shapeCast_self]
  exact ofBits_inf_f32

theorem pay1_apply (y : S1x8192.Idx) : (k0_pay1 (F := Ideal)) y = (⊤ : EReal) := by
  unfold k0_pay1
  rw [shapeCast_self]
  exact ofBits_inf_f32

/-- The slice update: the loaded slice against the column minima, entry by entry. -/
theorem pay2_apply (v27 : FVec Ideal S1x1024 .f32) (v44 : Vec Ideal S1x1024 .f32) (y : S1x1024.Idx) :
    k0_pay2 (F := Ideal) v27 v44 y = (min (v44 y) (v27 y) : EReal) := by
  unfold k0_pay2
  rw [shapeCast_self]
  rfl

/-- The two write-backs only add a unit axis in front. -/
theorem pay3_apply (v : Vec Ideal S1x2048 .f32) (q : Fin 2048) : k0_pay3 (F := Ideal) v (ix3 0 0 q) = v (ix2 0 q) := by
  unfold k0_pay3
  exact shapeCast_ab_1ab_apply v _ 0 0 q

theorem pay4_apply (v : Vec Ideal S1x8192 .f32) (q : Fin 8192) : k0_pay4 (F := Ideal) v (ix3 0 0 q) = v (ix2 0 q) := by
  unfold k0_pay4
  exact shapeCast_ab_1ab_apply v _ 0 0 q

end Cert.KernelIdeal.Tile

end
-- ==== Proof.Spec.lean ====
/-
  The specification both programs are compared against, over the extended reals.

  For point sets `xp`, `xg` of shape [4, 8192, 3] the clamped squared distance between point `i` of `xp` and point `j`
  of `xg` in batch `b` is

      sqd xp xg b i j = max ((|xp_i|² + |xg_j|²) - 2 · ⟨xp_i, xg_j⟩) 0,

  the three sums over the coordinate `d`, in exactly this grouping (both programs add the two squared norms first and
  subtract twice the inner product afterwards, so no algebraic law beyond reindexing is needed and no finiteness).
  `rowMin` is its minimum over `j`, `colMin` its minimum over `i`; `tail` is the scalar both programs end with:
  the mean of `rowMin · mask` plus the mean of `colMin`, each mean a sum divided by 32768.
-/
import Idealize.ShloMosaic.PureOps
import Idealize.ShloMosaic.PureOps.Ideal
import Idealize.ShloMosaic.Lib.ValueIdx

noncomputable section

namespace Cert.Spec

open Idealize.ShloMosaic Idealize.ShloMosaic.ValueIdx
open scoped BigOperators

/-- The shapes: the point sets, the mask, the per-point minima, the scalar. -/
abbrev SPts : Shape := ⟨3, ![4, 8192, 3]⟩
abbrev SMask : Shape := ⟨3, ![4, 8192, 1]⟩
abbrev SRows : Shape := ⟨2, ![4, 8192]⟩
abbrev S0 : Shape := ⟨0, ![]⟩

/-- The clamped squared distance of point `i` of `xp` and point `j` of `xg` in batch `b`. -/
def sqd (xp xg : SPts.Idx → EReal) (b : Fin 4) (i j : Fin 8192) : EReal :=
  max ((∑ d : Fin 3, xp (ix3 b i d) * xp (ix3 b i d) + ∑ d : Fin 3, xg (ix3 b j d) * xg (ix3 b j d))
        - Ideal.ofBits .f32 0x40000000#32 * ∑ d : Fin 3, xp (ix3 b i d) * xg (ix3 b j d))
      (Ideal.ofBits .f32 0x00000000#32)

/-- For each point of `xp`, the least clamped squared distance to a point of `xg`. -/
def rowMin (xp xg : SPts.Idx → EReal) : SRows.Idx → EReal :=
  fun y => ⨅ j : Fin 8192, sqd xp xg (y 0) (y 1) j

/-- For each point of `xg`, the least clamped squared distance to a point of `xp`. -/
def colMin (xp xg : SPts.Idx → EReal) : SRows.Idx → EReal :=
  fun y => ⨅ i : Fin 8192, sqd xp xg (y 0) i (y 1)

theorem rowMin_ix2 (xp xg : SPts.Idx → EReal) (b : Fin 4) (i : Fin 8192) :
    rowMin xp xg (ix2 b i) = ⨅ j : Fin 8192, sqd xp xg b i j := rfl

theorem colMin_ix2 (xp xg : SPts.Idx → EReal) (b : Fin 4) (j : Fin 8192) :
    colMin xp xg (ix2 b j) = ⨅ i : Fin 8192, sqd xp xg b i j := rfl

/-- The scalar both programs end with, as ONE function of the two arrays of minima and the mask: the sum of
    `rowmin · mask` over all 32768 entries divided by 32768, plus the sum of `colmin` divided by 32768. The shape facts
    are parameters (any two proofs of one are equal), so that each program's own facts fit. -/
def tail {F : FTy → Type} [FloatOps F] (hr : SRows.ReducesTo [0, 1] S0) (h0 : 0 < S0.numel) (hc : SMask.ShapeCasts SRows)
    (rowmin colmin : FVec F SRows .f32) (mask : FVec F SMask .f32) : FVec F S0 .f32 :=
  addf
    (Host.divf (Host.reduceAdd (mulf rowmin (shapeCast SRows mask hc)) (constant S0 .f32 0x00000000#32) hr h0)
      (constant S0 .f32 0x47000000#32))
    (Host.divf (Host.reduceAdd colmin (constant S0 .f32 0x00000000#32) hr h0) (constant S0 .f32 0x47000000#32))

end Cert.Spec

end
-- ==== Proof.Invariant.lean ====
/-
  The kernel's running minima after every grid point, over the extended reals.

  Point `n` of the grid is batch `b = n / 32`, query tile `n / 8 % 4`, key tile `n % 8`. After point `n`
  · entry `q` of the running row minimum is the least clamped squared distance from point `2048 · (n / 8 % 4) + q` of the
    first point set to the points of the second below `1024 · (n % 8 + 1)`: the key tiles seen so far in this sweep;
  · entry `k` of the running column minimum is the least distance from point `k` of the second point set to the points of
    the first below `2048 · (n / 8 % 4 + 1)` if `k` lies in a key tile already seen in this sweep (`k < 1024 · (n % 8 + 1)`),
    and below `2048 · (n / 8 % 4)` otherwise: the query tiles whose sweep has passed `k`.
  Each point folds one more block into a minimum over an initial segment (the block step of the library of minima); a reset
  starts the segment at nothing, where the minimum is +∞. At a batch's last key tile the row minimum is over all 8192 points,
  and at the batch's last point so is the column minimum: these are what is written back.
-/
import proofs.«169061_j8641474200219_1_alg».proof.Proof.AtPoint
import proofs.«169061_j8641474200219_1_alg».proof.Proof.TileValue
import proofs.«169061_j8641474200219_1_alg».proof.Proof.Spec
import proofs.«169061_j8641474200219_1_alg».proof.Proof.LibMinBlocks

set_option maxRecDepth 16384

noncomputable section

namespace Cert.KernelIdeal.Inv

open Idealize.ShloMosaic Idealize.ShloMosaic.TcCoe Idealize.ShloMosaic.ValueIdx
open Idealize.SL Idealize.SL.Sem
open Cert.KernelIdeal Cert.KernelIdeal.Gen Cert.KernelIdeal.Blocks Cert.KernelIdeal.AtPoint Cert.KernelIdeal.Tile
open Cert.Spec Cert.LibMinBlocks

variable (m : (ℓ : Loc nD τ sig) → Buf (Elt Ideal) ℓ)

/-- The two point sets on core `c`: the first (argument 1) and the second (argument 0). -/
abbrev xp (c : Dev nD) : SPts.Idx → EReal := m ((c : Thread nD τ).loc main_arg1)
abbrev xg (c : Dev nD) : SPts.Idx → EReal := m ((c : Thread nD τ).loc main_arg0)

/-- The tile's table at point `t`: entry (q, k) is the distance of the tile's point `q` of the first set and `k` of the second. -/
theorem tile_apply (c : Dev nD) (t : Fin cfg0.N) (q : Fin 2048) (k : Fin 1024) :
    (k0_pay5 (F := Ideal) (xblk0 m c t) (xblk1 m c t) (ix2 q k) : EReal)
      = sqd (xp m c) (xg m c) (bF t.val) (rowIdx t.val q) (colIdx t.val k) := by
  refine (pay5_apply (xblk0 m c t) (xblk1 m c t) q k).trans ?_
  have hA : ∀ d : Fin 3, xblk0 m c t (ix3 0 d q) = xp m c (ix3 (bF t.val) (rowIdx t.val q) d) := fun d => xblk0_apply m c t d q
  have hB : ∀ d : Fin 3, xblk1 m c t (ix3 0 d k) = xg m c (ix3 (bF t.val) (colIdx t.val k) d) := fun d => xblk1_apply m c t d k
  simp only [hA, hB]
  rfl

/-- The row update of the tile at point `t` against a loaded row `v`. -/
theorem row_value (c : Dev nD) (t : Fin cfg0.N) (v : Vec Ideal S1x2048 .f32) (q : Fin 2048) :
    (k0_pay8 (F := Ideal) (xblk0 m c t) (xblk1 m c t) v (ix2 0 q) : EReal)
      = min (v (ix2 0 q)) (⨅ k : Fin 1024, sqd (xp m c) (xg m c) (bF t.val) (rowIdx t.val q) (colIdx t.val k)) :=
  (pay8_apply (xblk0 m c t) (xblk1 m c t) v q).trans
    (congrArg (min (v (ix2 0 q))) (iInf_congr fun k => tile_apply m c t q k))

/-- The column update of the tile at point `t` against the slice of a base buffer `B`. -/
theorem col_value (c : Dev nD) (t : Fin cfg0.N) (B : Vec Ideal S1x8192 .f32) (k' : Fin 1024) :
    (k0_pay2 (F := Ideal) (k0_pay6 (xblk0 m c t) (xblk1 m c t)) (View.ld B (Pieces.colSlice (grid0.coords t))) (ix2 0 k') : EReal)
      = min (B (ix2 0 (colIdx t.val k'))) (⨅ q : Fin 2048, sqd (xp m c) (xg m c) (bF t.val) (rowIdx t.val q) (colIdx t.val k')) := by
  refine (pay2_apply _ _ (ix2 0 k')).trans ?_
  rw [ld_colSlice]
  exact congrArg (min (B (ix2 0 (colIdx t.val k'))))
    ((pay6_apply (xblk0 m c t) (xblk1 m c t) k').trans (iInf_congr fun q => tile_apply m c t q k'))

/-! ## The invariant -/

/-- Entry `q` of the running row minimum after point `n`. -/
def rowInv (c : Dev nD) (n : ℕ) (q : Fin 2048) : EReal :=
  ⨅ (j : Fin 8192) (_ : j.val < 1024 * (n % 8 + 1)), sqd (xp m c) (xg m c) (bF n) (rowIdx n q) j

/-- How many points of the first set entry `k` of the running column minimum has seen after point `n`. -/
def colBound (n : ℕ) (k : Fin 8192) : ℕ :=
  if k.val < 1024 * (n % 8 + 1) then 2048 * (n / 8 % 4 + 1) else 2048 * (n / 8 % 4)

/-- Entry `k` of the running column minimum after point `n`. -/
def colInv (c : Dev nD) (n : ℕ) (k : Fin 8192) : EReal :=
  ⨅ (i : Fin 8192) (_ : i.val < colBound n k), sqd (xp m c) (xg m c) (bF n) i k

/-- Both running minima hold their invariant after point `n`. -/
def Holds (c : Dev nD) (n : ℕ) (hn : n < cfg0.N) : Prop :=
  (∀ q : Fin 2048, (outsAt0 m c n hn).2.2.1 (ix2 0 q) = rowInv m c n q)
    ∧ (∀ k : Fin 8192, (outsAt0 m c n hn).2.2.2 (ix2 0 k) = colInv m c n k)

/-- An index in the key tile of point `n` is one of its 1024. -/
theorem exists_colIdx (n : ℕ) (k : Fin 8192) (hk : 1024 * (n % 8) ≤ k.val ∧ k.val < 1024 * (n % 8) + 1024) :
    ∃ k' : Fin 1024, colIdx n k' = k :=
  ⟨⟨k.val - 1024 * (n % 8), by omega⟩, Fin.ext (by show 1024 * (n % 8) + (k.val - 1024 * (n % 8)) = k.val; omega)⟩

/-- One more key tile folded into a row minimum over the key tiles before it. -/
theorem row_fold (c : Dev nD) (n : ℕ) (q : Fin 2048) (base : EReal)
    (hbase : base = ⨅ (j : Fin 8192) (_ : j.val < 1024 * (n % 8)), sqd (xp m c) (xg m c) (bF n) (rowIdx n q) j) :
    min base (⨅ k : Fin 1024, sqd (xp m c) (xg m c) (bF n) (rowIdx n q) (colIdx n k)) = rowInv m c n q := by
  rw [hbase]
  exact (iInf_lt_block_succ (fun j => sqd (xp m c) (xg m c) (bF n) (rowIdx n q) j) 1024 (n % 8) (colIdx n) (fun _ => rfl)).symm

/-- At a first key tile nothing has been seen: the reset's +∞. -/
theorem row_base_reset (c : Dev nD) (n : ℕ) (q : Fin 2048) (h0 : n % 8 = 0) :
    (⊤ : EReal) = ⨅ (j : Fin 8192) (_ : j.val < 1024 * (n % 8)), sqd (xp m c) (xg m c) (bF n) (rowIdx n q) j := by
  rw [h0]; simp

/-- At a later key tile the point before left the minimum over the key tiles before this one. -/
theorem row_base_carry (c : Dev nD) (n : ℕ) (q : Fin 2048) (h0 : ¬n % 8 = 0) :
    rowInv m c (n - 1) q = ⨅ (j : Fin 8192) (_ : j.val < 1024 * (n % 8)), sqd (xp m c) (xg m c) (bF n) (rowIdx n q) j := by
  unfold rowInv
  have e1 : bF (n - 1) = bF n := Fin.ext (by show (n - 1) / 32 % 4 = n / 32 % 4; omega)
  have e2 : rowIdx (n - 1) q = rowIdx n q := Fin.ext (by show 2048 * ((n - 1) / 8 % 4) + q.val = 2048 * (n / 8 % 4) + q.val; omega)
  rw [e1, e2]
  exact iInf_lt_congr _ (by omega)

/-- One more query tile folded into a column minimum over the query tiles before it. -/
theorem col_fold_hit (c : Dev nD) (n : ℕ) (k' : Fin 1024) (base : EReal)
    (hbase : base = ⨅ (i : Fin 8192) (_ : i.val < 2048 * (n / 8 % 4)), sqd (xp m c) (xg m c) (bF n) i (colIdx n k')) :
    min base (⨅ q : Fin 2048, sqd (xp m c) (xg m c) (bF n) (rowIdx n q) (colIdx n k')) = colInv m c n (colIdx n k') := by
  unfold colInv
  have hb : colBound n (colIdx n k') = 2048 * (n / 8 % 4 + 1) := by
    unfold colBound
    rw [if_pos]
    show 1024 * (n % 8) + k'.val < 1024 * (n % 8 + 1)
    have := k'.isLt; omega
  rw [hb, hbase]
  exact (iInf_lt_block_succ (fun i => sqd (xp m c) (xg m c) (bF n) i (colIdx n k')) 2048 (n / 8 % 4) (rowIdx n) (fun _ => rfl)).symm

theorem col_reset_hit (c : Dev nD) (n : ℕ) (h32 : n % 32 = 0) (k' : Fin 1024) :
    (⊤ : EReal) = ⨅ (i : Fin 8192) (_ : i.val < 2048 * (n / 8 % 4)), sqd (xp m c) (xg m c) (bF n) i (colIdx n k') := by
  have e : n / 8 % 4 = 0 := by omega
  rw [e]; simp

theorem col_reset_miss (c : Dev nD) (n : ℕ) (h32 : n % 32 = 0) (k : Fin 8192)
    (hk : k.val < 1024 * (n % 8) ∨ 1024 * (n % 8) + 1024 ≤ k.val) : (⊤ : EReal) = colInv m c n k := by
  unfold colInv
  have hb : colBound n k = 0 := by
    unfold colBound
    have := k.isLt
    split_ifs <;> omega
  rw [hb]; simp

theorem col_carry_hit (c : Dev nD) (n : ℕ) (h32 : ¬n % 32 = 0) (k' : Fin 1024) :
    colInv m c (n - 1) (colIdx n k')
      = ⨅ (i : Fin 8192) (_ : i.val < 2048 * (n / 8 % 4)), sqd (xp m c) (xg m c) (bF n) i (colIdx n k') := by
  unfold colInv
  have e1 : bF (n - 1) = bF n := Fin.ext (by show (n - 1) / 32 % 4 = n / 32 % 4; omega)
  have hb : colBound (n - 1) (colIdx n k') = 2048 * (n / 8 % 4) := by
    unfold colBound
    have h1 : (colIdx n k').val = 1024 * (n % 8) + k'.val := rfl
    have := k'.isLt
    split_ifs <;> omega
  rw [e1, hb]

theorem col_carry_miss (c : Dev nD) (n : ℕ) (h32 : ¬n % 32 = 0) (k : Fin 8192)
    (hk : k.val < 1024 * (n % 8) ∨ 1024 * (n % 8) + 1024 ≤ k.val) : colInv m c (n - 1) k = colInv m c n k := by
  unfold colInv
  have e1 : bF (n - 1) = bF n := Fin.ext (by show (n - 1) / 32 % 4 = n / 32 % 4; omega)
  have hb : colBound (n - 1) k = colBound n k := by
    unfold colBound
    have := k.isLt
    split_ifs <;> omega
  rw [e1, hb]

/-- THE STEP: if the invariant holds after the point before (when there is one), it holds after point `t`. -/
theorem step (c : Dev nD) (t : Fin cfg0.N)
    (hprev : t.val ≠ 0 → Holds m c (t.val - 1) (Nat.lt_of_le_of_lt (Nat.sub_le _ _) t.isLt)) : Holds m c t.val t.isLt := by
  have hN : t.val < 128 := lt_of_lt_of_eq t.isLt (show cfg0.N = 128 from N_0)
  by_cases h0 : t.val % 8 = 0
  · have h2 : ¬t.val % 8 = 7 := by omega
    have h3 : ¬t.val % 32 = 31 := by omega
    by_cases h1 : t.val % 32 = 0
    · -- the batch's first point: both minima start afresh
      refine ⟨fun q => ?_, fun k => ?_⟩
      · rw [row_A m c t h0 h1 h2 h3]
        refine (row_value m c t _ q).trans (row_fold m c t.val q _ ?_)
        rw [pay7_apply]; exact row_base_reset m c t.val q h0
      · by_cases hk : 1024 * (t.val % 8) ≤ k.val ∧ k.val < 1024 * (t.val % 8) + 1024
        · obtain ⟨k', rfl⟩ := exists_colIdx t.val k hk
          rw [col_A_hit m c t h0 h1 h2 h3 k']
          refine (col_value m c t _ k').trans (col_fold_hit m c t.val k' _ ?_)
          rw [pay1_apply]; exact col_reset_hit m c t.val h1 k'
        · have hk' : k.val < 1024 * (t.val % 8) ∨ 1024 * (t.val % 8) + 1024 ≤ k.val := by omega
          rw [col_A_miss m c t h0 h1 h2 h3 k hk']
          rw [pay1_apply]; exact col_reset_miss m c t.val h1 k hk'
    · -- the first key tile of a later query tile: the row minimum starts afresh
      have hz : t.val ≠ 0 := by omega
      refine ⟨fun q => ?_, fun k => ?_⟩
      · rw [row_D m c t h0 h1 h2 h3]
        refine (row_value m c t _ q).trans (row_fold m c t.val q _ ?_)
        rw [pay7_apply]; exact row_base_reset m c t.val q h0
      · by_cases hk : 1024 * (t.val % 8) ≤ k.val ∧ k.val < 1024 * (t.val % 8) + 1024
        · obtain ⟨k', rfl⟩ := exists_colIdx t.val k hk
          rw [col_D_hit m c t h0 h1 h2 h3 k']
          refine (col_value m c t _ k').trans (col_fold_hit m c t.val k' _ ?_)
          rw [(hprev hz).2 (colIdx t.val k')]; exact col_carry_hit m c t.val h1 k'
        · have hk' : k.val < 1024 * (t.val % 8) ∨ 1024 * (t.val % 8) + 1024 ≤ k.val := by omega
          rw [col_D_miss m c t h0 h1 h2 h3 k hk']
          rw [(hprev hz).2 k]; exact col_carry_miss m c t.val h1 k hk'
  · have h1 : ¬t.val % 32 = 0 := by omega
    have hz : t.val ≠ 0 := by omega
    by_cases h2 : t.val % 8 = 7
    · by_cases h3 : t.val % 32 = 31
      · -- the batch's last point
        refine ⟨fun q => ?_, fun k => ?_⟩
        · rw [row_E m c t h0 h1 h2 h3]
          refine (row_value m c t _ q).trans (row_fold m c t.val q _ ?_)
          rw [(hprev hz).1 q]; exact row_base_carry m c t.val q h0
        · by_cases hk : 1024 * (t.val % 8) ≤ k.val ∧ k.val < 1024 * (t.val % 8) + 1024
          · obtain ⟨k', rfl⟩ := exists_colIdx t.val k hk
            rw [col_E_hit m c t h0 h1 h2 h3 k']
            refine (col_value m c t _ k').trans (col_fold_hit m c t.val k' _ ?_)
            rw [(hprev hz).2 (colIdx t.val k')]; exact col_carry_hit m c t.val h1 k'
          · have hk' : k.val < 1024 * (t.val % 8) ∨ 1024 * (t.val % 8) + 1024 ≤ k.val := by omega
            rw [col_E_miss m c t h0 h1 h2 h3 k hk']
            rw [(hprev hz).2 k]; exact col_carry_miss m c t.val h1 k hk'
      · -- a last key tile
        refine ⟨fun q => ?_, fun k => ?_⟩
        · rw [row_C m c t h0 h1 h2 h3]
          refine (row_value m c t _ q).trans (row_fold m c t.val q _ ?_)
          rw [(hprev hz).1 q]; exact row_base_carry m c t.val q h0
        · by_cases hk : 1024 * (t.val % 8) ≤ k.val ∧ k.val < 1024 * (t.val % 8) + 1024
          · obtain ⟨k', rfl⟩ := exists_colIdx t.val k hk
            rw [col_C_hit m c t h0 h1 h2 h3 k']
            refine (col_value m c t _ k').trans (col_fold_hit m c t.val k' _ ?_)
            rw [(hprev hz).2 (colIdx t.val k')]; exact col_carry_hit m c t.val h1 k'
          · have hk' : k.val < 1024 * (t.val % 8) ∨ 1024 * (t.val % 8) + 1024 ≤ k.val := by omega
            rw [col_C_miss m c t h0 h1 h2 h3 k hk']
            rw [(hprev hz).2 k]; exact col_carry_miss m c t.val h1 k hk'
    · -- a middle key tile
      have h3 : ¬t.val % 32 = 31 := by omega
      refine ⟨fun q => ?_, fun k => ?_⟩
      · rw [row_B m c t h0 h1 h2 h3]
        refine (row_value m c t _ q).trans (row_fold m c t.val q _ ?_)
        rw [(hprev hz).1 q]; exact row_base_carry m c t.val q h0
      · by_cases hk : 1024 * (t.val % 8) ≤ k.val ∧ k.val < 1024 * (t.val % 8) + 1024
        · obtain ⟨k', rfl⟩ := exists_colIdx t.val k hk
          rw [col_B_hit m c t h0 h1 h2 h3 k']
          refine (col_value m c t _ k').trans (col_fold_hit m c t.val k' _ ?_)
          rw [(hprev hz).2 (colIdx t.val k')]; exact col_carry_hit m c t.val h1 k'
        · have hk' : k.val < 1024 * (t.val % 8) ∨ 1024 * (t.val % 8) + 1024 ≤ k.val := by omega
          rw [col_B_miss m c t h0 h1 h2 h3 k hk']
          rw [(hprev hz).2 k]; exact col_carry_miss m c t.val h1 k hk'

/-- The invariant holds after every point. -/
theorem holds (c : Dev nD) : ∀ (n : ℕ) (hn : n < cfg0.N), Holds m c n hn := by
  intro n
  induction n with
  | zero => intro hn; exact step m c ⟨0, hn⟩ (fun h => absurd rfl h)
  | succ n ih => intro hn; exact step m c ⟨n + 1, hn⟩ (fun _ => ih _)

/-- At a last key tile the row minimum is over all 8192 points of the second set. -/
theorem rowInv_last (c : Dev nD) (n : ℕ) (h2 : n % 8 = 7) (q : Fin 2048) :
    rowInv m c n q = rowMin (xp m c) (xg m c) (ix2 (bF n) (rowIdx n q)) := by
  unfold rowInv
  rw [rowMin_ix2]
  exact iInf_lt_of_forall _ _ (fun j => by have := j.isLt; omega)

/-- At a batch's last point the column minimum is over all 8192 points of the first set. -/
theorem colInv_last (c : Dev nD) (n : ℕ) (h3 : n % 32 = 31) (k : Fin 8192) :
    colInv m c n k = colMin (xp m c) (xg m c) (ix2 (bF n) k) := by
  unfold colInv
  rw [colMin_ix2]
  have hb : colBound n k = 8192 := by
    unfold colBound
    have := k.isLt
    split_ifs <;> omega
  rw [hb]
  exact iInf_lt_of_forall _ _ (fun i => i.isLt)

/-- WHAT IS WRITTEN BACK to the first output at a last key tile: the row minima of the tile's 2048 points. -/
theorem out2_value (c : Dev nD) (t : Fin cfg0.N) (h2 : t.val % 8 = 7) (q : Fin 2048) :
    (outsAt0 m c t.val t.isLt).1 (ix3 0 0 q) = rowMin (xp m c) (xg m c) (ix2 (bF t.val) (rowIdx t.val q)) := by
  have h0 : ¬t.val % 8 = 0 := by omega
  have h1 : ¬t.val % 32 = 0 := by omega
  have hv : (outsAt0 m c t.val t.isLt).1 (ix3 0 0 q) = (outsAt0 m c t.val t.isLt).2.2.1 (ix2 0 q) := by
    by_cases h3 : t.val % 32 = 31
    · rw [out2_E m c t h0 h1 h2 h3]; exact pay3_apply _ q
    · rw [out2_C m c t h0 h1 h2 h3]; exact pay3_apply _ q
  rw [hv, (holds m c t.val t.isLt).1 q]
  exact rowInv_last m c t.val h2 q

/-- WHAT IS WRITTEN BACK to the second output at a batch's last point: the column minima of all 8192 points. -/
theorem out3_value (c : Dev nD) (t : Fin cfg0.N) (h3 : t.val % 32 = 31) (k : Fin 8192) :
    (outsAt0 m c t.val t.isLt).2.1 (ix3 0 0 k) = colMin (xp m c) (xg m c) (ix2 (bF t.val) k) := by
  have h0 : ¬t.val % 8 = 0 := by omega
  have h1 : ¬t.val % 32 = 0 := by omega
  have h2 : t.val % 8 = 7 := by omega
  have hv : (outsAt0 m c t.val t.isLt).2.1 (ix3 0 0 k) = (outsAt0 m c t.val t.isLt).2.2.2 (ix2 0 k) := by
    rw [out3_E m c t h0 h1 h2 h3]; exact pay4_apply _ k
  rw [hv, (holds m c t.val t.isLt).2 k]
  exact colInv_last m c t.val h3 k

end Cert.KernelIdeal.Inv

end
-- ==== Proof.Arrays.lean ====
/-
  What the kernel's two output arrays hold after the run.

  The first output [4, 1, 8192] is written back block by block, 2048 entries at the last key tile of each query tile; the
  second [4, 1, 8192] one whole batch row at each batch's last point. Every entry of either array lies in exactly such a
  block, so after the run entry (b, 0, i) of the first is the least clamped squared distance from point `i` of the first
  point set to the second, and entry (b, 0, j) of the second the least distance from point `j` of the second to the first.
-/
import proofs.«169061_j8641474200219_1_alg».proof.Proof.Invariant

set_option maxRecDepth 16384

noncomputable section

namespace Cert.KernelIdeal.Arrays

open Idealize.ShloMosaic Idealize.ShloMosaic.TcCoe Idealize.ShloMosaic.ValueIdx
open Idealize.SL Idealize.SL.Sem
open Cert.KernelIdeal Cert.KernelIdeal.Gen Cert.KernelIdeal.Blocks Cert.KernelIdeal.Inv
open Cert.Spec

variable (m : (ℓ : Loc nD τ sig) → Buf (Elt Ideal) ℓ)

/-- The arrays of minima with the unit middle axis the kernel's outputs have. -/
def orowArr (c : Dev nD) : FVec Ideal S4x1x8192 .f32 :=
  fun i => rowMin (xp m c) (xg m c) (ix2 ⟨(i 0).val, (i 0).isLt⟩ ⟨(i 2).val, (i 2).isLt⟩)
def ocolArr (c : Dev nD) : FVec Ideal S4x1x8192 .f32 :=
  fun i => colMin (xp m c) (xg m c) (ix2 ⟨(i 0).val, (i 0).isLt⟩ ⟨(i 2).val, (i 2).isLt⟩)

theorem orowArr_ix3 (c : Dev nD) (b : Fin 4) (i : Fin 8192) : orowArr m c (ix3 b 0 i) = rowMin (xp m c) (xg m c) (ix2 b i) := rfl
theorem ocolArr_ix3 (c : Dev nD) (b : Fin 4) (j : Fin 8192) : ocolArr m c (ix3 b 0 j) = colMin (xp m c) (xg m c) (ix2 b j) := rfl

/-! ## The first output: written back at each query tile's last key tile -/

/-- WHAT A LAST KEY TILE WRITES BACK is its block of the array of row minima. -/
theorem rowBlock_written (c : Dev nD) (t : Fin cfg0.N) (hf : (cfg0.win 2).flush t = true) :
    (dats m 0 c).flushed 2 t = ((cfg0.win 2).blk t).view.read (Elt Ideal) (orowArr m c) := by
  show (cfg0.win 2).cut (grid0.coords t) ((dats m 0 c).after 2 t) = _
  rw [after0_2]
  have h2 : t.val % 8 = 7 := (flush0_2 t).mp hf
  funext y
  obtain ⟨u, w, q, rfl⟩ : ∃ (u w : Fin 1) (q : Fin 2048), y = ix3 u w q := ⟨y 0, y 1, y 2, eq_ix3 y⟩
  obtain rfl : u = 0 := Subsingleton.elim _ _
  obtain rfl : w = 0 := Subsingleton.elim _ _
  show (outsAt0 m c t.val t.isLt).1 (ix3 0 0 q) = orowArr m c (((cfg0.win 2).blk t).view.emb (ix3 (0 : Fin 1) (0 : Fin 1) q))
  rw [out2_value m c t h2 q]
  obtain ⟨-, -, -, -, -, -, e0, e1, e2, -⟩ := idx_facts t
  have hN : t.val < 128 := lt_of_lt_of_eq t.isLt (show cfg0.N = 128 from N_0)
  have he : ((cfg0.win 2).blk t).view.emb (ix3 (0 : Fin 1) (0 : Fin 1) q) = ix3 (bF t.val) (0 : Fin 1) (rowIdx t.val q) := by
    funext a; apply Fin.ext
    match a with
    | ⟨0, _⟩ => show win0_2.index t (0 : Fin 3) * 1 + 1 * 0 = t.val / 32 % 4; omega
    | ⟨1, _⟩ => show win0_2.index t (1 : Fin 3) * 1 + 1 * 0 = 0; omega
    | ⟨2, _⟩ => show win0_2.index t (2 : Fin 3) * 2048 + 1 * q.val = 2048 * (t.val / 8 % 4) + q.val; omega
  rw [he]
  rfl

/-- An index of the array is in point `t`'s block iff each coordinate is in the block's range on its axis. -/
theorem mem_rowBlock (t : Fin cfg0.N) (i : S4x1x8192.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v2_0).slice (win0_2.rect t)).set ↔ _
  rw [View.set_slice_whole, Rect.mem_set_unit]
  exact Iff.rfl

/-- Every entry (b, 0, r) lies in the block written back at the last key tile of batch `b`'s query tile `r / 2048`. -/
theorem rowBlocks_cover (i : S4x1x8192.Idx) :
    ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 8192 := (i 2).isLt
  have hN : cfg0.N = 128 := N_0
  obtain ⟨t, ht⟩ : ∃ t : Fin cfg0.N, t.val = 32 * (i 0).val + 8 * ((i 2).val / 2048) + 7 :=
    ⟨⟨32 * (i 0).val + 8 * ((i 2).val / 2048) + 7, by rw [hN]; omega⟩, rfl⟩
  obtain ⟨-, -, -, -, -, -, e0, e1, e2, -⟩ := idx_facts t
  refine ⟨t, (flush0_2 t).mpr (by omega), ?_⟩
  rw [mem_rowBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

/-- The first output array after the run. -/
theorem final2 (c : Dev nD) : (dats m 0 c).arrAt 2 cfg0.N = orowArr m c :=
  (dats m 0 c).arrAt_eq_of_cover 2 (orowArr m c) (fun t hf => rowBlock_written m c t hf) rowBlocks_cover

/-! ## The second output: one whole batch row, written back at each batch's last point -/

/-- WHAT A BATCH'S LAST POINT WRITES BACK is its block, the batch's whole row, of the array of column minima. -/
theorem colBlock_written (c : Dev nD) (t : Fin cfg0.N) (hf : (cfg0.win 3).flush t = true) :
    (dats m 0 c).flushed 3 t = ((cfg0.win 3).blk t).view.read (Elt Ideal) (ocolArr m c) := by
  show (cfg0.win 3).cut (grid0.coords t) ((dats m 0 c).after 3 t) = _
  rw [after0_3]
  have h3 : t.val % 32 = 31 := (flush0_3 t).mp hf
  funext y
  obtain ⟨u, w, k, rfl⟩ : ∃ (u w : Fin 1) (k : Fin 8192), y = ix3 u w k := ⟨y 0, y 1, y 2, eq_ix3 y⟩
  obtain rfl : u = 0 := Subsingleton.elim _ _
  obtain rfl : w = 0 := Subsingleton.elim _ _
  show (outsAt0 m c t.val t.isLt).2.1 (ix3 0 0 k) = ocolArr m c (((cfg0.win 3).blk t).view.emb (ix3 (0 : Fin 1) (0 : Fin 1) k))
  rw [out3_value m c t h3 k]
  obtain ⟨-, -, -, -, -, -, -, -, -, e0, e1, e2, -⟩ := idx_facts t
  have hN : t.val < 128 := lt_of_lt_of_eq t.isLt (show cfg0.N = 128 from N_0)
  have he : ((cfg0.win 3).blk t).view.emb (ix3 (0 : Fin 1) (0 : Fin 1) k) = ix3 (bF t.val) (0 : Fin 1) k := by
    funext a; apply Fin.ext
    match a with
    | ⟨0, _⟩ => show win0_3.index t (0 : Fin 3) * 1 + 1 * 0 = t.val / 32 % 4; omega
    | ⟨1, _⟩ => show win0_3.index t (1 : Fin 3) * 1 + 1 * 0 = 0; omega
    | ⟨2, _⟩ => show win0_3.index t (2 : Fin 3) * 8192 + 1 * k.val = k.val; omega
  rw [he]
  rfl

/-- An index of the array is in point `t`'s block iff each coordinate is in the block's range on its axis. -/
theorem mem_colBlock (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v2_1).slice (win0_3.rect t)).set ↔ _
  rw [View.set_slice_whole, Rect.mem_set_unit]
  exact Iff.rfl

/-- Every entry (b, 0, j) lies in the block written back at batch `b`'s last point. -/
theorem colBlocks_cover (i : S4x1x8192.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 8192 := (i 2).isLt
  have hN : cfg0.N = 128 := N_0
  obtain ⟨t, ht⟩ : ∃ t : Fin cfg0.N, t.val = 32 * (i 0).val + 31 :=
    ⟨⟨32 * (i 0).val + 31, by rw [hN]; omega⟩, rfl⟩
  obtain ⟨-, -, -, -, -, -, -, -, -, e0, e1, e2, -⟩ := idx_facts t
  refine ⟨t, (flush0_3 t).mpr (by omega), ?_⟩
  rw [mem_colBlock]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The second output array after the run. -/
theorem final3 (c : Dev nD) : (dats m 0 c).arrAt 3 cfg0.N = ocolArr m c :=
  (dats m 0 c).arrAt_eq_of_cover 3 (ocolArr m c) (fun t hf => colBlock_written m c t hf) colBlocks_cover

end Cert.KernelIdeal.Arrays

end
-- ==== Proof.KernelRun.lean ====
/-
  The idealized kernel's run with its result named.

  After the region the program reshapes the two output arrays to [4, 8192], multiplies the first by the mask, and ends
  with the shared scalar: the mean of the masked row minima plus the mean of the column minima. With the two arrays at the
  specification's minima (the arrays module), the result buffer holds the specification's scalar of the argument arrays,
  and the arguments are unchanged.
-/
import proofs.«169061_j8641474200219_1_alg».proof.Proof.Arrays

set_option maxRecDepth 16384

noncomputable section

namespace Cert.KernelIdeal.KernelRun

open Idealize.ShloMosaic Idealize.ShloMosaic.TcCoe Idealize.ShloMosaic.ValueIdx
open Idealize.SL Idealize.SL.Sem
open Cert.KernelIdeal Cert.KernelIdeal.Gen Cert.KernelIdeal.Inv Cert.KernelIdeal.Arrays
open Cert.Spec

variable (m : (ℓ : Loc nD τ sig) → Buf (Elt Ideal) ℓ) (ρ : Dev nD → PrngReg)

/-- A [4, 1, 8192] array reshaped to [4, 8192] reads entry (b, 0, i) at (b, i). -/
theorem reshape_orow (c : Dev nD) :
    shapeCast S4x8192 (orowArr m c) shapeCasts_S4x1x8192_S4x8192 = rowMin (xp m c) (xg m c) := by
  funext y
  obtain ⟨b, i, rfl⟩ : ∃ (b : Fin 4) (i : Fin 8192), y = ix2 b i := ⟨y 0, y 1, eq_ix2 y⟩
  -- (b, i) of [4, 8192] and (b, 0, i) of [4, 1, 8192] have the same row-major position
  refine (shapeCast_apply (orowArr m c) shapeCasts_S4x1x8192_S4x8192 (ix2 b i) (ix3 b (0 : Fin 1) i) ?_).trans
    (orowArr_ix3 m c b i)
  rewrite [Shape.rowMajor_val_three, Shape.rowMajor_val_two]
  show (b.val * 1 + 0) * 8192 + i.val = b.val * 8192 + i.val
  omega

theorem reshape_ocol (c : Dev nD) :
    shapeCast S4x8192 (ocolArr m c) shapeCasts_S4x1x8192_S4x8192 = colMin (xp m c) (xg m c) := by
  funext y
  obtain ⟨b, j, rfl⟩ : ∃ (b : Fin 4) (j : Fin 8192), y = ix2 b j := ⟨y 0, y 1, eq_ix2 y⟩
  refine (shapeCast_apply (ocolArr m c) shapeCasts_S4x1x8192_S4x8192 (ix2 b j) (ix3 b (0 : Fin 1) j) ?_).trans
    (ocolArr_ix3 m c b j)
  rewrite [Shape.rowMajor_val_three, Shape.rowMajor_val_two]
  show (b.val * 1 + 0) * 8192 + j.val = b.val * 8192 + j.val
  omega

/-- What the host operations after the region leave in the result buffer. -/
theorem result_eq (c : Dev nD) :
    Pipeline.afterTail₀ cfgs (dats m) 0 (V0 m) [hostOps1] c main_v11
      = tail (F := Ideal) reducesTo_S4x8192_S_d0_1 h_S_ shapeCasts_S4x8192x1_S4x8192
          (rowMin (xp m c) (xg m c)) (colMin (xp m c) (xg m c)) (m ((c : Thread nD τ).loc main_arg2)) := by
  unfold Pipeline.afterTail₀
  show StableHlo.after hostOps1 _ (Proc.devRef .tc main_v11) = _
  after_results
  -- the two output arrays after the region are the arrays of minima; the mask is as launched
  have h2 : Pipeline.withArrays (cfgs 0).spec c (V0 m c) (fun w => (dats m 0 c).arrAt w (cfgs 0).N)
      (Proc.devRef .tc main_v2_0) = orowArr m c :=
    (Pipeline.withArrays_arr spec0 launch0.win.arr_inj c _ _ 2).trans (final2 m c)
  have h3 : Pipeline.withArrays (cfgs 0).spec c (V0 m c) (fun w => (dats m 0 c).arrAt w (cfgs 0).N)
      (Proc.devRef .tc main_v2_1) = ocolArr m c :=
    (Pipeline.withArrays_arr spec0 launch0.win.arr_inj c _ _ 3).trans (final3 m c)
  have ha : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [h2, h3, ha, ← reshape_orow m c, ← reshape_ocol m c]
  rfl

/-- THE RUN: every weakly fair execution terminates with the result at the specification's scalar of the arguments, and
    the arguments unchanged. -/
theorem run : θ_run (defs (F := Ideal)) (onTc (τ := τ) (main (F := Ideal))) ⟨m, fun _ => 0, ρ⟩ (fun r => ∀ c : Dev nD,
      r.2.mem ((c.tc : Thread nD τ).loc main_v11)
        = tail (F := Ideal) reducesTo_S4x8192_S_d0_1 h_S_ shapeCasts_S4x8192x1_S4x8192
            (rowMin (xp m c) (xg m c)) (colMin (xp m c) (xg m c)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  -- the frame run's post read at the result buffer and at the three argument buffers, none of them an array of the region
  (θ_run defs _ _).mono (fun r h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefSide.lean ====
/-
  The reference program's result, over the extended reals, is the specification's scalar.

  The reference forms the whole [4, 8192, 8192] table of clamped squared distances at once (entry (b, i, j): point `i`
  of the first point set against point `j` of the second), takes its minimum along the last axis and along the middle
  axis, and ends with the shared scalar. Read at an index, the table's entry is `Spec.sqd`, each minimum an infimum over
  the reduced axis, so the two arrays of minima are `Spec.rowMin` and `Spec.colMin`.
-/
import proofs.«169061_j8641474200219_1_alg».proof.Proof.Gen.ReferenceIdeal.Read
import proofs.«169061_j8641474200219_1_alg».proof.Proof.Spec
import proofs.«169061_j8641474200219_1_alg».proof.Proof.LibMinBlocks
import Idealize.ShloMosaic.PureOps.Reduce
import Mathlib.Order.CompleteLattice.Basic
import Mathlib.Data.Fin.SuccPred

noncomputable section

namespace Cert.ReferenceIdeal.RefValue

open Idealize.ShloMosaic Idealize.ShloMosaic.ValueIdx Cert.ReferenceIdeal Cert.ReferenceIdeal.Gen Cert.ReferenceIdeal.Read
open scoped BigOperators

/-- The table's entry (b, i, j) is the clamped squared distance of point `i` of `x1` and point `j` of `x0`. -/
theorem table_apply (x0 x1 : FVec Ideal S4x8192x3 .f32) (b : Fin 4) (i j : Fin 8192) :
    val_main_v14 (F := Ideal) x0 x1 (ix3 b i j) = Cert.Spec.sqd x1 x0 b i j := by
  -- the composed index maps of the broadcasts, the two row sums and the product, at the entry (b, i, j)
  have e1 : ∀ k : Fin 3, idx_main_v1 (idx_main_v5 (idx_main_v7 (ix3 b i j))) k = ix3 b i k := fun k =>
    funext fun a => by match a with | ⟨0, _⟩ => rfl | ⟨1, _⟩ => rfl | ⟨2, _⟩ => rfl
  have e3 : ∀ k : Fin 3, idx_main_v3 (idx_main_v6 (idx_main_v8 (ix3 b i j))) k = ix3 b j k := fun k =>
    funext fun a => by match a with | ⟨0, _⟩ => rfl | ⟨1, _⟩ => rfl | ⟨2, _⟩ => rfl
  have el : ∀ k : Fin 3, lidx_main_v4 (ix3 b i j) k = ix3 b i k := fun k =>
    funext fun a => by match a with | ⟨0, _⟩ => rfl | ⟨1, _⟩ => rfl | ⟨2, _⟩ => rfl
  have er : ∀ k : Fin 3, ridx_main_v4 (ix3 b i j) k = ix3 b j k := fun k =>
    funext fun a => by match a with | ⟨0, _⟩ => rfl | ⟨1, _⟩ => rfl | ⟨2, _⟩ => rfl
  rw [val_main_v14_apply, val_main_v12_apply, val_main_v9_apply, val_main_v7_apply, val_main_v5_apply,
    val_main_v1_apply, val_main_v8_apply, val_main_v6_apply, val_main_v3_apply, val_main_v11_apply,
    val_main_v10_apply, val_main_v4_apply, val_main_v13_apply, val_main_cst_apply, val_main_cst_0_apply,
    val_main_cst_1_apply, val_main_cst_2_apply]
  unfold Cert.Spec.sqd
  simp only [val_main_v0_apply, val_main_v2_apply, e1, e3, el, er, Ideal.mulf_def, Ideal.addf_def, Ideal.subf_def,
    Ideal.maximumf_def, Ideal.ofBits_def, Ideal.ofBits_zero_f32, zero_add]

/-- From +∞ (the word 0x7F800000) a fold of the minimum over a whole finite type is the infimum of the values. -/
private theorem fold_minimumf_inf {ι : Type} [Fintype ι] (f : ι → Ideal .f32) :
    (Finset.univ : Finset ι).fold (FloatOps.minimumf (F := Ideal) (φ := .f32)) (Ideal.ofBits .f32 0x7F800000#32) f
      = ⨅ k, f k := by
  have htop : Ideal.ofBits .f32 0x7F800000#32 = (⊤ : EReal) := by simp [Ideal.ofBits, Ideal.ieee]
  rw [htop]
  exact Cert.LibMinBlocks.fold_min_top_univ (α := EReal) f

/-- The extent of the table's last axis, and of its middle axis. -/
private theorem size_d2 : S4x8192x8192.size 2 = 8192 := rfl
private theorem size_d1 : S4x8192x8192.size 1 = 8192 := rfl

/-- The index of minima (b, i) with the coordinate `k` put back on the last axis is (b, i, k). -/
private theorem lift_d2 (hr : S4x8192x8192.Reduces [2] S4x8192) (b : Fin 4) (i : Fin 8192)
    (k : Fin (S4x8192x8192.size 2)) : hr.lift (ix2 b i) k = ix3 b i (finCongr size_d2 k) := by
  funext c; apply Fin.ext
  match c with | ⟨0, _⟩ => rfl | ⟨1, _⟩ => rfl | ⟨2, _⟩ => rfl

/-- The index of minima (b, j) with the coordinate `k` put back on the middle axis is (b, k, j). -/
private theorem lift_d1 (hr : S4x8192x8192.Reduces [1] S4x8192) (b : Fin 4) (j : Fin 8192)
    (k : Fin (S4x8192x8192.size 1)) : hr.lift (ix2 b j) k = ix3 b (finCongr size_d1 k) j := by
  funext c; apply Fin.ext
  match c with | ⟨0, _⟩ => rfl | ⟨1, _⟩ => rfl | ⟨2, _⟩ => rfl

/-- The minimum along the last axis: for each point of `x1` the least distance to a point of `x0`. -/
theorem rowMin_eq (x0 x1 : FVec Ideal S4x8192x3 .f32) :
    val_main_v15 (F := Ideal) x0 x1 = Cert.Spec.rowMin x1 x0 := by
  have hr : S4x8192x8192.Reduces [2] S4x8192 := by decide
  funext y
  obtain ⟨b, i, rfl⟩ : ∃ (b : Fin 4) (i : Fin 8192), y = ix2 b i := ⟨y 0, y 1, eq_ix2 y⟩
  unfold val_main_v15
  -- the reduce at (b, i) is the fold of the minimum, from +∞, over the last axis's coordinates
  have e := Host.reduce_eq_fold_single (FloatOps.minimumf (F := Ideal) (φ := .f32)) (val_main_v14 (F := Ideal) x0 x1)
    (val_main_cst_3 (F := Ideal)) reducesTo_S4x8192x8192_S4x8192_d2 hr h_S_ (ix2 b i)
  refine e.trans ?_
  rw [val_main_cst_3_apply, Ideal.ofBits_def, fold_minimumf_inf, Cert.Spec.rowMin_ix2]
  -- the infimum over that axis's coordinates is the infimum over `Fin 8192`, entry by entry the specification's
  refine Equiv.iInf_congr (finCongr size_d2) fun k => ?_
  exact (table_apply x0 x1 b i (finCongr size_d2 k)).symm.trans
    (congrArg (val_main_v14 (F := Ideal) x0 x1) (lift_d2 hr b i k).symm)

/-- The minimum along the middle axis: for each point of `x0` the least distance to a point of `x1`. -/
theorem colMin_eq (x0 x1 : FVec Ideal S4x8192x3 .f32) :
    val_main_v16 (F := Ideal) x0 x1 = Cert.Spec.colMin x1 x0 := by
  have hr : S4x8192x8192.Reduces [1] S4x8192 := by decide
  funext y
  obtain ⟨b, j, rfl⟩ : ∃ (b : Fin 4) (j : Fin 8192), y = ix2 b j := ⟨y 0, y 1, eq_ix2 y⟩
  unfold val_main_v16
  -- the reduce at (b, j) is the fold of the minimum, from +∞, over the middle axis's coordinates
  have e := Host.reduce_eq_fold_single (FloatOps.minimumf (F := Ideal) (φ := .f32)) (val_main_v14 (F := Ideal) x0 x1)
    (val_main_cst_4 (F := Ideal)) reducesTo_S4x8192x8192_S4x8192_d1 hr h_S_ (ix2 b j)
  refine e.trans ?_
  rw [val_main_cst_4_apply, Ideal.ofBits_def, fold_minimumf_inf, Cert.Spec.colMin_ix2]
  refine Equiv.iInf_congr (finCongr size_d1) fun k => ?_
  exact (table_apply x0 x1 b (finCongr size_d1 k) j).symm.trans
    (congrArg (val_main_v14 (F := Ideal) x0 x1) (lift_d1 hr b j k).symm)

/-- The reference's result is the shared scalar of the two arrays of minima and the mask. -/
theorem result_eq (x0 x1 : FVec Ideal S4x8192x3 .f32) (x2 : FVec Ideal S4x8192x1 .f32) :
    val_main_v23 (F := Ideal) x0 x1 x2
      = Cert.Spec.tail (F := Ideal) reducesTo_S4x8192_S_d0_1 h_S_ shapeCasts_S4x8192x1_S4x8192
          (Cert.Spec.rowMin x1 x0) (Cert.Spec.colMin x1 x0) x2 := by
  -- every stage after the two arrays of minima is a definition: unfolded, the result is the shared scalar of them
  have h : val_main_v23 (F := Ideal) x0 x1 x2
      = Cert.Spec.tail (F := Ideal) reducesTo_S4x8192_S_d0_1 h_S_ shapeCasts_S4x8192x1_S4x8192
          (val_main_v15 (F := Ideal) x0 x1) (val_main_v16 (F := Ideal) x0 x1) x2 := by
    unfold val_main_v23 val_main_v20 val_main_v22 val_main_v19 val_main_v21 val_main_v18 val_main_v17
      val_main_cst_5 val_main_cst_6 val_main_cst_7 val_main_cst_8 Cert.Spec.tail
    rfl
  rw [h, rowMin_eq, colMin_eq]

end Cert.ReferenceIdeal.RefValue

end
-- ==== Proof.lean ====
/-
  A Pallas kernel for the masked two-sided chamfer distance of two point sets of shape [4, 8192, 3], against its jnp
  reference, over the extended reals.

  Both programs compute, for every pair of points, the clamped squared distance max((|p|² + |g|²) − 2·⟨p, g⟩, 0), take for
  every point of either set the least distance to the other set, and end with the mean of the first set's minima times a
  mask plus the mean of the second set's minima. The reference forms the whole 8192 × 8192 table per batch and reduces it
  along each axis. The kernel walks the table in 2048 × 1024 tiles: per tile it folds the tile's row minima into a running
  row minimum (reset at each query tile's first key tile, written out at its last) and the tile's column minima into a
  running column minimum over the whole batch row (reset at the batch's first tile, written out at its last). A minimum
  taken tile by tile is the minimum over all: minimum is associative, commutative and idempotent on the extended reals, and
  a reset to +∞ is its neutral element, so no finiteness of the inputs is used. The sums over the three coordinates and the
  grouping (|p|² + |g|²) − 2·⟨p, g⟩ are the same on both sides, and so is the closing scalar, carried as one function.

  The modules: Spec (the distance, the two arrays of minima, the closing scalar), LibMinBlocks (minima over blocks of an
  index range), RefSide (the reference's result is the specification's), TileValue (the kernel body's arithmetic at an
  index), Pieces and AtPoint (what each control case of the body leaves in its buffers), Blocks (where a tile's blocks sit
  in the point sets), Invariant (the running minima after every grid point, by induction over the grid), Arrays (the two
  output arrays after the run), KernelRun (the kernel's run with its result named). The three frames are the generated
  ones; the idealization rewrote nothing, so `preserves` asks nothing.
-/
import proofs.«169061_j8641474200219_1_alg».proof.Defs
import proofs.«169061_j8641474200219_1_alg».proof.Proof.Gen.Kernel
import proofs.«169061_j8641474200219_1_alg».proof.Proof.Gen.Kernel.Frame
import proofs.«169061_j8641474200219_1_alg».proof.Proof.Gen.KernelIdeal
import proofs.«169061_j8641474200219_1_alg».proof.Proof.Gen.KernelIdeal.Frame
import proofs.«169061_j8641474200219_1_alg».proof.Proof.Gen.ReferenceIdeal
import proofs.«169061_j8641474200219_1_alg».proof.Proof.Gen.ReferenceIdeal.Run
import proofs.«169061_j8641474200219_1_alg».proof.Proof.Gen.ReferenceIdeal.Read
import proofs.«169061_j8641474200219_1_alg».proof.Proof.Gen.Pre_finite_inputs
import proofs.«169061_j8641474200219_1_alg».proof.Proof.KernelRun
import proofs.«169061_j8641474200219_1_alg».proof.Proof.RefSide

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's scalar of the argument arrays, which agree. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
